-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S1x128 .f32) (main_arg13 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S1x128 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S1x128 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S50000x1 : Shape := ⟨2, ![50000, 1]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S512x128 : Shape := ⟨2, ![512, 128]⟩
abbrev S1000x128 : Shape := ⟨2, ![1000, 128]⟩
abbrev S1000x1 : Shape := ⟨2, ![1000, 1]⟩
abbrev S1000x512 : Shape := ⟨2, ![1000, 512]⟩
abbrev S1x1 : Shape := ⟨2, ![1, 1]⟩
abbrev S512x1 : Shape := ⟨2, ![512, 1]⟩
abbrev S512 : Shape := ⟨1, ![512]⟩

abbrev nBuf : Space → Nat
  | .hbm => 104
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x128, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S50000x1, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S50000x128, .f32⟩
  | .hbm, ⟨36, _⟩ => ⟨S1600000x1, .i32⟩
  | .hbm, ⟨37, _⟩ => ⟨S50000x128, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S50000, .f32⟩
  | .hbm, ⟨50, _⟩ => ⟨S1600000x1, .i32⟩
  | .hbm, ⟨51, _⟩ => ⟨S50000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S50000x128, .f32⟩
  | .hbm, ⟨63, _⟩ => ⟨S1600000x1, .i32⟩
  | .hbm, ⟨64, _⟩ => ⟨S50000x128, .f32⟩
  | .hbm, ⟨65, _⟩ => ⟨S_, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S1600000, .f32⟩
  | .hbm, ⟨75, _⟩ => ⟨S_, .f32⟩
  | .hbm, ⟨76, _⟩ => ⟨S50000, .f32⟩
  | .hbm, ⟨77, _⟩ => ⟨S1600000x1, .i32⟩
  | .hbm, ⟨78, _⟩ => ⟨S50000, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S_, .f32⟩
  | .hbm, ⟨89, _⟩ => ⟨S50000x128, .f32⟩
  | .hbm, ⟨90, _⟩ => ⟨S1600000x1, .i32⟩
  | .hbm, ⟨91, _⟩ => ⟨S50000x128, .f32⟩
  | .hbm, ⟨92, _⟩ => ⟨S_, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S512x128, .f32⟩
  | .hbm, ⟨101, _⟩ => ⟨S512x128, .f32⟩
  | .hbm, ⟨102, _⟩ => ⟨S1x1, .f32⟩
  | .hbm, ⟨103, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S1000x128, .f32⟩
  | .local _ .vmem, ⟨28, _⟩ => ⟨S1000x128, .f32⟩
  | .local _ .vmem, ⟨29, _⟩ => ⟨S1000x1, .i32⟩
  | .local _ .vmem, ⟨30, _⟩ => ⟨S1000x1, .i32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S1x128, .f32⟩
  | .local _ .vmem, ⟨36, _⟩ => ⟨S1x1, .f32⟩
  | .local _ .vmem, ⟨37, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_c_13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_15 : Ref sig .tc := ⟨.hbm, 92, rfl⟩
abbrev main_call2_v0 : Ref sig .tc := ⟨.hbm, 93, rfl⟩
abbrev main_call2_v1 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62_0 : Ref sig .tc := ⟨.hbm, 100, rfl⟩
abbrev main_v62_1 : Ref sig .tc := ⟨.hbm, 101, rfl⟩
abbrev main_v63 : Ref sig .tc := ⟨.hbm, 102, rfl⟩
abbrev main_v64 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc4_stg0_0 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc4_sem0_0 : DmaSem sig := 33
abbrev cc4_sem1_0 : DmaSem sig := 34
abbrev cc4_sem2_0 : DmaSem sig := 35
abbrev cc4_sem3_0 : DmaSem sig := 36
abbrev cc4_sem4_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S50000_S50000x1 : S50000.ShapeCasts S50000x1
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S512x128_S512x128_0_0 : ∀ a, (![0, 0] : Fin 2 → Nat) a + S512x128.size a ≤ S512x128.size a
  h_S512x128 : 0 < S512x128.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S512x128_S512x128 : S512x128.ShapeCasts S512x128
  shapeCasts_S1_S1x1 : S1.ShapeCasts S1x1
  inb_S1x128_S1x128_0_0 : ∀ a, (![0, 0] : Fin 2 → Nat) a + S1x128.size a ≤ S1x128.size a
  h_S1x128 : 0 < S1x128.numel
  broadcasts_S1x128_S512x128 : S1x128.Broadcasts S512x128
  reduces_S512x128_S512 : S512x128.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_1_0_0_n_n_wf : DotDims.WF S5000x128 S128x128 S5000x128 [1] [1] [0] [0] [] []
  dot_S1000x512_S1000x128_S512x128_0_0_1_1_n_n_wf : DotDims.WF S1000x512 S1000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S50000x1.size a
  hwx3_1 : ∀ i : grid3.Coords, EltTy.bits .i32 = 32 ∨ (Rect.block (s := S50000x1) S1000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S512x128.size a
  hwx3_2 : ∀ i : grid3.Coords, EltTy.bits .f32 = 32 ∨ (Rect.block (s := S512x128) S512x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S512x128.size a
  hwx3_3 : ∀ i : grid3.Coords, EltTy.bits .f32 = 32 ∨ (Rect.block (s := S512x128) S512x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .f32 = 32 ∨ (Rect.block (s := S512x128) S512x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x1.size a ≤ S512x1.size a
  hwx4_4 : ∀ i : grid4.Coords, EltTy.bits .f32 = 32 ∨ (Rect.block (s := S512x1) S512x1.size (cc4_transform_4 i) (hinb4_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S1000x512_S1000x128_S512x128_0_0_1_1_n_n : DotDims S1000x512 S1000x128 S512x128 where
  lhsContracting := [0]
  rhsContracting := [0]
  lhsNonContracting := [1]
  rhsNonContracting := [1]
  lhsBatch := []
  rhsBatch := []
  wf := dot_S1000x512_S1000x128_S512x128_0_0_1_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62_0) S512x128.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62_1) S512x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62_0) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v62_1) S512x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S512x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S512 : Shape := ⟨1, ![512]⟩
abbrev S512x128 : Shape := ⟨2, ![512, 128]⟩
abbrev S512x1 : Shape := ⟨2, ![512, 1]⟩
abbrev S128x1 : Shape := ⟨2, ![128, 1]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S1x128, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S50000, .f32⟩
  | 22 => ⟨S1600000x1, .i32⟩
  | 23 => ⟨S50000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S50000x128, .f32⟩
  | 35 => ⟨S1600000x1, .i32⟩
  | 36 => ⟨S50000x128, .f32⟩
  | 37 => ⟨S_, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x128, .f32⟩
  | 45 => ⟨S50000x128, .f32⟩
  | 46 => ⟨S1x128, .f32⟩
  | 47 => ⟨S50000x128, .f32⟩
  | 48 => ⟨S50000x128, .f32⟩
  | 49 => ⟨S128x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .f32⟩
  | 56 => ⟨S1600000, .f32⟩
  | 57 => ⟨S_, .f32⟩
  | 58 => ⟨S50000, .f32⟩
  | 59 => ⟨S1600000x1, .i32⟩
  | 60 => ⟨S50000, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S50000x128, .f32⟩
  | 72 => ⟨S1600000x1, .i32⟩
  | 73 => ⟨S50000x128, .f32⟩
  | 74 => ⟨S_, .f32⟩
  | 75 => ⟨S_, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S128x128, .f32⟩
  | 82 => ⟨S50000x128, .f32⟩
  | 83 => ⟨S1x128, .f32⟩
  | 84 => ⟨S50000x128, .f32⟩
  | 85 => ⟨S50000x128, .f32⟩
  | 86 => ⟨S128x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S_, .f32⟩
  | 93 => ⟨S1600000, .f32⟩
  | 94 => ⟨S_, .f32⟩
  | 95 => ⟨S50000, .f32⟩
  | 96 => ⟨S1600000x1, .i32⟩
  | 97 => ⟨S50000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S50000x128, .f32⟩
  | 109 => ⟨S1600000x1, .i32⟩
  | 110 => ⟨S50000x128, .f32⟩
  | 111 => ⟨S_, .f32⟩
  | 112 => ⟨S_, .f32⟩
  | 113 => ⟨S50000, .f32⟩
  | 114 => ⟨S50000, .f32⟩
  | 115 => ⟨S50000x1, .f32⟩
  | 116 => ⟨S50000x128, .f32⟩
  | 117 => ⟨S50000x128, .f32⟩
  | 118 => ⟨S128x128, .f32⟩
  | 119 => ⟨S50000x128, .f32⟩
  | 120 => ⟨S1x128, .f32⟩
  | 121 => ⟨S50000x128, .f32⟩
  | 122 => ⟨S50000x128, .f32⟩
  | 123 => ⟨S128x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000, .f32⟩
  | 3 => ⟨S_, .f32⟩
  | 4 => ⟨S512, .f32⟩
  | 5 => ⟨S50000x1, .i32⟩
  | 6 => ⟨S512, .f32⟩
  | 7 => ⟨S_, .f32⟩
  | 8 => ⟨S512x128, .f32⟩
  | 9 => ⟨S50000x1, .i32⟩
  | 10 => ⟨S512x128, .f32⟩
  | 11 => ⟨S_, .f32⟩
  | 12 => ⟨S_, .f32⟩
  | 13 => ⟨S512, .f32⟩
  | 14 => ⟨S512, .f32⟩
  | 15 => ⟨S512x1, .f32⟩
  | 16 => ⟨S512x128, .f32⟩
  | 17 => ⟨S512x128, .f32⟩
  | 18 => ⟨S128x1, .f32⟩
  | 19 => ⟨S512x1, .f32⟩
  | 20 => ⟨S1x1, .f32⟩
  | 21 => ⟨S512x1, .f32⟩
  | 22 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_cst : Ref sig .tc := ⟨.hbm, 52, rfl⟩
abbrev main_call1_v0 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_call2_v0 : Ref sig .tc := ⟨.hbm, 75, rfl⟩
abbrev main_call2_v1 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call3_cst : Ref sig .tc := ⟨.hbm, 89, rfl⟩
abbrev main_call3_v0 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_12 : Ref sig .tc := ⟨.hbm, 98, rfl⟩
abbrev main_v62 : Ref sig .tc := ⟨.hbm, 99, rfl⟩
abbrev main_v63 : Ref sig .tc := ⟨.hbm, 100, rfl⟩
abbrev main_c_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_14 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_15 : Ref sig .tc := ⟨.hbm, 111, rfl⟩
abbrev main_call4_v0 : Ref sig .tc := ⟨.hbm, 112, rfl⟩
abbrev main_call4_v1 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call5_cst : Ref sig .tc := ⟨.hbm, 126, rfl⟩
abbrev main_call5_v0 : Ref sig .tc := ⟨.hbm, 127, rfl⟩
abbrev main_v84 : Ref sig .tc := ⟨.hbm, 128, rfl⟩
abbrev main_cst_16 : Ref sig .tc := ⟨.hbm, 129, rfl⟩
abbrev main_v85 : Ref sig .tc := ⟨.hbm, 130, rfl⟩
abbrev main_cst_17 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_18 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_19 : Ref sig .tc := ⟨.hbm, 139, rfl⟩
abbrev main_call6_v0 : Ref sig .tc := ⟨.hbm, 140, rfl⟩
abbrev main_call6_v1 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S1x128_S128x1_1_0 : S1x128.Transposes [1, 0] S128x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x1_S512x1_1_0_0_1_n_n_wf : DotDims.WF S512x128 S128x1 S512x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Spec.lean ====
/-
  The mathematics of the certificate, with no program in sight: a three-layer GraphSAGE network with mean
  aggregation, a mean pool per graph and a linear head, each stage as ONE function of whole arrays of extended
  reals, index by index.

    layer A X Wl b Wr   at (r, j):  max ((∑ₖ A[r,k]·Wl[j,k] + b[j]) + ∑ₖ X[r,k]·Wr[j,k], 0)
    poolSum H B         at (g, d):  ∑ over the nodes n whose graph id B[n], read as a signed integer, is g, of H[n,d]
    poolCnt B           at g:       the number of such nodes, as a sum of ones
    poolSumBlocks H B   at (g, d):  the same sum as the kernel takes it: over fifty blocks of a thousand nodes,
                                    each node's row times the one-hot entry `ind` of its graph id against g
    head S N fw fb      at (g, 0):  ∑_d (S[g,d] / max (1, N[g])) · fw[0,d] + fb[0]

  The neighbour aggregation between the layers is the same chain of host operations in both programs and is
  carried as an opaque function (module `Agg`).
-/
import Idealize.ShloMosaic.PureOps.Ideal
import Idealize.ShloMosaic.Lib.ValueIdx

noncomputable section

namespace Cert.Sage

open Idealize.ShloMosaic Idealize.ShloMosaic.ValueIdx

/-- Node features: 50000 nodes, 128 features. -/
abbrev SNodes : Shape := ⟨2, ![50000, 128]⟩
/-- A layer's weight matrix, [out, in]. -/
abbrev SWt : Shape := ⟨2, ![128, 128]⟩
/-- A layer's bias. -/
abbrev SBias : Shape := ⟨1, ![128]⟩
/-- One graph id per node. -/
abbrev SBatch : Shape := ⟨1, ![50000]⟩
/-- Per-graph feature sums: 512 graphs. -/
abbrev SPool : Shape := ⟨2, ![512, 128]⟩
/-- Per-graph node counts. -/
abbrev SCnt : Shape := ⟨1, ![512]⟩
/-- The head's weight row. -/
abbrev SHeadW : Shape := ⟨2, ![1, 128]⟩
/-- The head's bias. -/
abbrev SHeadB : Shape := ⟨1, ![1]⟩
/-- The result: one number per graph. -/
abbrev SOut : Shape := ⟨2, ![512, 1]⟩

/-- One SAGE layer: the aggregated neighbours `A` through `Wl` (contracted on ITS second axis: `A · Wlᵀ`), plus the
    bias, plus the node's own features `X` through `Wr`, then the positive part. -/
def layer (A X : SNodes.Idx → EReal) (Wl : SWt.Idx → EReal) (b : SBias.Idx → EReal) (Wr : SWt.Idx → EReal) :
    SNodes.Idx → EReal := fun i =>
  max (((∑ k : Fin 128, A (ix2 (i 0) k) * Wl (ix2 (i 1) k)) + b (ix1 (i 1)))
        + ∑ k : Fin 128, X (ix2 (i 0) k) * Wr (ix2 (i 1) k)) 0

/-- The feature sum of graph `g`: over the nodes whose graph id, read signed, is `g`. -/
def poolSum (H : SNodes.Idx → EReal) (B : SBatch.Idx → BitVec 32) : SPool.Idx → EReal := fun i =>
  ∑ n ∈ Finset.univ.filter (fun n : Fin 50000 => (B (ix1 n)).toInt = ((i 0 : Fin 512).val : Int)), H (ix2 n (i 1))

/-- The node count of graph `g`, as a sum of ones. -/
def poolCnt (B : SBatch.Idx → BitVec 32) : SCnt.Idx → EReal := fun i =>
  ∑ _n ∈ Finset.univ.filter (fun n : Fin 50000 => (B (ix1 n)).toInt = ((i 0 : Fin 512).val : Int)), (1 : EReal)

/-- The one-hot entry of a node's graph id `b` (a 32-bit word) against graph `g`: one when the word is `g`'s. -/
def ind (b : BitVec 32) (g : Fin 512) : EReal := if b = BitVec.ofNat 32 g.val then 1 else 0

/-- Node `r` of block `t`: fifty blocks of a thousand nodes. -/
def nodeOf (t : Fin 50) (r : Fin 1000) : Fin 50000 := ⟨1000 * t.val + r.val, by have := t.isLt; have := r.isLt; omega⟩

/-- The feature sum of graph `g` block by block: each block's one-hot matrix product, the blocks summed. -/
def poolSumBlocks (H : SNodes.Idx → EReal) (B : SBatch.Idx → BitVec 32) : SPool.Idx → EReal := fun i =>
  ∑ t : Fin 50, ∑ r : Fin 1000, ind (B (ix1 (nodeOf t r))) (i 0) * H (ix2 (nodeOf t r) (i 1))

/-- The node count of graph `g` block by block, the one-hot matrix against a matrix of ones (so every column of
    the row `g` holds the count). -/
def poolCntBlocks (B : SBatch.Idx → BitVec 32) : SPool.Idx → EReal := fun i =>
  ∑ t : Fin 50, ∑ r : Fin 1000, ind (B (ix1 (nodeOf t r))) (i 0) * 1

/-- The head: the mean of each graph's features (the count clipped below at one) against the weight row, plus the
    bias. `Ideal.div` is the extended reals' quotient as both programs compute it. -/
def head (S : SPool.Idx → EReal) (N : SCnt.Idx → EReal) (fw : SHeadW.Idx → EReal) (fb : SHeadB.Idx → EReal) :
    SOut.Idx → EReal := fun i =>
  (∑ d : Fin 128, Ideal.div (S (ix2 (i 0) d)) (max 1 (N (ix1 (i 0)))) * fw (ix2 (0 : Fin 1) d)) + fb (ix1 (0 : Fin 1))

end Cert.Sage

end
-- ==== Proof.Agg.lean ====
/-
  The neighbour mean aggregation that both programs run between the layers, as ONE function of whole arrays: the
  in-degree of every node (a scatter-add of ones at the destinations), the source rows gathered (negative source
  indices wrapped once by the node count, as numpy indexing does) and scatter-added at the destinations, and the
  quotient by the degree clipped below at one. It is kept opaque: the certificate only needs that the two programs
  apply the same function.
-/
import proofs.«421996_j17197049053739_2_alg».proof.KernelIdeal

noncomputable section

namespace Cert.Sage

open Idealize.ShloMosaic Cert.KernelIdeal Cert.KernelIdeal.Facts₀ Cert.KernelIdeal.Facts

variable {F : FTy → Type} [FloatOps F] [Cert.KernelIdeal.Facts]

/-- Row 0 of the edge list: the sources. -/
def srcOf (e : IVec S2x1600000 32) : IVec S1600000 32 :=
  shapeCast S1600000 (extractStridedSlice S1x1600000 ![0, 0] e slices_S2x1600000_S1x1600000_0_0) shapeCasts_S1x1600000_S1600000

/-- Row 1 of the edge list: the destinations. -/
def dstOf (e : IVec S2x1600000 32) : IVec S1600000 32 :=
  shapeCast S1600000 (extractStridedSlice S1x1600000 ![1, 0] e slices_S2x1600000_S1x1600000_1_0) shapeCasts_S1x1600000_S1600000

/-- The mean over each node's incoming edges of the source rows of `X` (zero rows where there is no edge). -/
def agg (X : FVec F S50000x128 .f32) (src dst : IVec S1600000 32) : FVec F S50000x128 .f32 :=
  Host.divf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 dst)
      (Host.gather gather_S50000x128_S1600000x1_S1600000x128_1_0_n_n_0_1_1128 X
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))))
    (broadcastInDim S50000x128 ![0, 1] bcast_S50000x1_S50000x128_0_1
      (broadcastInDim S50000x1 ![0] bcast_S50000_S50000x1_0
        (maximumf (broadcastInDim S50000 ![] bcast_S_S50000 (id (constant S_ .f32 0x3F800000#32)))
          (Host.scatterAdd scatter_S50000_S1600000x1_S1600000_n_0_0_1
            (broadcastInDim S50000 ![] bcast_S_S50000 (constant S_ .f32 0x00000000#32))
            (broadcastInDim S1600000x1 ![0] bcast_S1600000_S1600000x1_0 dst)
            (broadcastInDim S1600000 ![] bcast_S_S1600000 (constant S_ .f32 0x3F800000#32))))))

end Cert.Sage

end
-- ==== Proof.Net.lean ====
/-
  The whole network as ONE function of the fourteen arguments: three SAGE layers, each over the mean aggregation of
  the layer before, the per-graph pool and the head. Both programs are shown to compute it.
-/
import proofs.«421996_j17197049053739_2_alg».proof.Proof.Spec
import proofs.«421996_j17197049053739_2_alg».proof.Proof.Agg

noncomputable section

namespace Cert.Sage

open Idealize.ShloMosaic Cert.KernelIdeal

variable [Cert.KernelIdeal.Facts]

/-- The three hidden layers' node features, from the input features and the edge list. -/
def hidden (x : FVec Ideal S50000x128 .f32) (e : IVec S2x1600000 32)
    (Wl0 : FVec Ideal S128x128 .f32) (b0 : FVec Ideal S128 .f32) (Wr0 : FVec Ideal S128x128 .f32)
    (Wl1 : FVec Ideal S128x128 .f32) (b1 : FVec Ideal S128 .f32) (Wr1 : FVec Ideal S128x128 .f32)
    (Wl2 : FVec Ideal S128x128 .f32) (b2 : FVec Ideal S128 .f32) (Wr2 : FVec Ideal S128x128 .f32) :
    FVec Ideal S50000x128 .f32 :=
  let h1 : FVec Ideal S50000x128 .f32 := layer (agg x (srcOf e) (dstOf e)) x Wl0 b0 Wr0
  let h2 : FVec Ideal S50000x128 .f32 := layer (agg h1 (srcOf e) (dstOf e)) h1 Wl1 b1 Wr1
  layer (agg h2 (srcOf e) (dstOf e)) h2 Wl2 b2 Wr2

/-- The network's result: one number per graph. -/
def net (x : FVec Ideal S50000x128 .f32) (e : IVec S2x1600000 32) (B : IVec S50000 32)
    (Wl0 : FVec Ideal S128x128 .f32) (b0 : FVec Ideal S128 .f32) (Wr0 : FVec Ideal S128x128 .f32)
    (Wl1 : FVec Ideal S128x128 .f32) (b1 : FVec Ideal S128 .f32) (Wr1 : FVec Ideal S128x128 .f32)
    (Wl2 : FVec Ideal S128x128 .f32) (b2 : FVec Ideal S128 .f32) (Wr2 : FVec Ideal S128x128 .f32)
    (fw : FVec Ideal S1x128 .f32) (fb : FVec Ideal S1 .f32) : FVec Ideal S512x1 .f32 :=
  head (poolSum (hidden x e Wl0 b0 Wr0 Wl1 b1 Wr1 Wl2 b2 Wr2) B) (poolCnt B) fw fb

end Cert.Sage

end
-- ==== Proof.Boundary.lean ====
/-
  The host side of the kernel's program between its five pallas_calls, read at the buffers the regions need.
  At each region's entry: the aggregated features are `agg` of the previous layer's result array and of the two
  rows of the edge list (computed once, before the first region, and never written again); the weight and bias
  arrays are the arguments as launched (nothing writes them); the graph ids as a column are the reshape of the
  argument; the two pooled arrays pass the last host stretch (a reshape of the head's bias) untouched.
-/
import proofs.«421996_j17197049053739_2_alg».proof.Proof.Gen.KernelIdeal.Frame
import proofs.«421996_j17197049053739_2_alg».proof.Proof.Net
import Idealize.ShloMosaic.Lib.StableHlo.Run
import Idealize.ShloMosaic.Lib.Tactic

set_option maxRecDepth 16384
set_option Elab.async false

noncomputable section

open Idealize.ShloMosaic Idealize.ShloMosaic.TcCoe Idealize.SL.Sem Idealize.ShloMosaic.StableHlo

namespace Cert.Sage.Boundary

open Cert.KernelIdeal Cert.KernelIdeal.Gen Cert.Sage

/-- Walks a buffer's contents at a segment boundary back through the host stretches (each operation's result at its
    own buffer, any other buffer untouched) and through the regions that do not write it. -/
macro "walk" : tactic => `(tactic| (
  repeat (first
    | (dsimp only [W1, W2, W3, W5, W6, W7, W9, W10, W11, W14, V3, V4, V7, V8, V11, V12, V13, V14])
    | (rw [W4_of_ne]; rotate_left; decide)
    | (rw [W8_of_ne]; rotate_left; decide)
    | (rw [W12_of_ne]; rotate_left; decide)
    | (rw [W13_of_ne]; rotate_left; decide)
    | after_results_simp)))

section Stretches

variable (W : Valuation τ sig (Elt Ideal))

/-! ### The first aggregation's three host stretches, from any contents `W` -/

/-- The scatter-added gathered rows. -/
theorem sum0 : StableHlo.after hostOps0 W (Proc.devRef .tc main_v18)
    = Host.scatterAdd (F := Ideal) (φ := .f32) scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 (dstOf (W (Proc.devRef .tc main_arg1))))
      (Host.gather gather_S50000x128_S1600000x1_S1600000x128_1_0_n_n_0_1_1128 (W (Proc.devRef .tc main_arg0))
        (broadcastInDim S1600000x1 ![0] bcast_S1600000_S1600000x1_0
          (select (cmpi .slt (srcOf (W (Proc.devRef .tc main_arg1))) (broadcastInDim S1600000 ![] bcast_S_S1600000 (constantI S_ 32 0#32)))
            (addi (srcOf (W (Proc.devRef .tc main_arg1))) (broadcastInDim S1600000 ![] bcast_S_S1600000 (constantI S_ 32 50000#32))) (srcOf (W (Proc.devRef .tc main_arg1)))))) := by
  after_results_simp
  rfl

/-- The in-degrees. -/
theorem deg0 : StableHlo.after hostOps0 W (Proc.devRef .tc main_v8)
    = Host.scatterAdd (F := Ideal) (φ := .f32) scatter_S50000_S1600000x1_S1600000_n_0_0_1
      (broadcastInDim S50000 ![] bcast_S_S50000 (constant (F := Ideal) S_ .f32 0x00000000#32))
      (broadcastInDim S1600000x1 ![0] bcast_S1600000_S1600000x1_0 (dstOf (W (Proc.devRef .tc main_arg1))))
      (broadcastInDim S1600000 ![] bcast_S_S1600000 (constant (F := Ideal) S_ .f32 0x3F800000#32)) := by
  after_results_simp
  rfl

/-- The clip's lower bound. -/
theorem one0 : StableHlo.after hostOps0 W (Proc.devRef .tc main_cst_3) = constant (F := Ideal) S_ .f32 0x3F800000#32 := by
  after_results_simp

/-- The clipped degrees. -/
theorem clip0 : StableHlo.after hostOps0_1 W (Proc.devRef .tc main_v19)
    = maximumf (F := Ideal) (φ := .f32) (broadcastInDim S50000 ![] bcast_S_S50000 (id (W (Proc.devRef .tc main_cst_3)))) (W (Proc.devRef .tc main_v8)) := by
  after_results_simp
  rfl

/-- The clip leaves the sums alone. -/
theorem clip0_keep : StableHlo.after hostOps0_1 W (Proc.devRef .tc main_v18) = (W (Proc.devRef .tc main_v18)) := by
  after_results_simp

/-- The quotient. -/
theorem div0 : StableHlo.after hostOps0_2 W (Proc.devRef .tc main_v22)
    = Host.divf (F := Ideal) (φ := .f32) (W (Proc.devRef .tc main_v18))
        (broadcastInDim S50000x128 ![0, 1] bcast_S50000x1_S50000x128_0_1
          (broadcastInDim S50000x1 ![0] bcast_S50000_S50000x1_0 (W (Proc.devRef .tc main_v19)))) := by
  after_results_simp

/-- The three stretches together are `agg`. -/
theorem agg0 : StableHlo.after hostOps0_2 (StableHlo.after hostOps0_1 (StableHlo.after hostOps0 W)) (Proc.devRef .tc main_v22)
    = agg (F := Ideal) (W (Proc.devRef .tc main_arg0)) (srcOf (W (Proc.devRef .tc main_arg1))) (dstOf (W (Proc.devRef .tc main_arg1))) := by
  rw [div0, clip0_keep, clip0, sum0, deg0, one0]
  rfl

/-! ### The second aggregation's three host stretches, from any contents `W` -/

/-- The scatter-added gathered rows. -/
theorem sum1 : StableHlo.after hostOps1 W (Proc.devRef .tc main_v37)
    = Host.scatterAdd (F := Ideal) (φ := .f32) scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 (W (Proc.devRef .tc main_v3)))
      (Host.gather gather_S50000x128_S1600000x1_S1600000x128_1_0_n_n_0_1_1128 (W (Proc.devRef .tc main_v23))
        (broadcastInDim S1600000x1 ![0] bcast_S1600000_S1600000x1_0
          (select (cmpi .slt (W (Proc.devRef .tc main_v1)) (broadcastInDim S1600000 ![] bcast_S_S1600000 (constantI S_ 32 0#32)))
            (addi (W (Proc.devRef .tc main_v1)) (broadcastInDim S1600000 ![] bcast_S_S1600000 (constantI S_ 32 50000#32))) (W (Proc.devRef .tc main_v1))))) := by
  after_results_simp

/-- The in-degrees. -/
theorem deg1 : StableHlo.after hostOps1 W (Proc.devRef .tc main_v27)
    = Host.scatterAdd (F := Ideal) (φ := .f32) scatter_S50000_S1600000x1_S1600000_n_0_0_1
      (broadcastInDim S50000 ![] bcast_S_S50000 (constant (F := Ideal) S_ .f32 0x00000000#32))
      (broadcastInDim S1600000x1 ![0] bcast_S1600000_S1600000x1_0 (W (Proc.devRef .tc main_v3)))
      (broadcastInDim S1600000 ![] bcast_S_S1600000 (constant (F := Ideal) S_ .f32 0x3F800000#32)) := by
  after_results_simp

/-- The clip's lower bound. -/
theorem one1 : StableHlo.after hostOps1 W (Proc.devRef .tc main_cst_9) = constant (F := Ideal) S_ .f32 0x3F800000#32 := by
  after_results_simp

/-- The clipped degrees. -/
theorem clip1 : StableHlo.after hostOps1_1 W (Proc.devRef .tc main_v38)
    = maximumf (F := Ideal) (φ := .f32) (broadcastInDim S50000 ![] bcast_S_S50000 (id (W (Proc.devRef .tc main_cst_9)))) (W (Proc.devRef .tc main_v27)) := by
  after_results_simp
  rfl

/-- The clip leaves the sums alone. -/
theorem clip1_keep : StableHlo.after hostOps1_1 W (Proc.devRef .tc main_v37) = (W (Proc.devRef .tc main_v37)) := by
  after_results_simp

/-- The quotient. -/
theorem div1 : StableHlo.after hostOps1_2 W (Proc.devRef .tc main_v41)
    = Host.divf (F := Ideal) (φ := .f32) (W (Proc.devRef .tc main_v37))
        (broadcastInDim S50000x128 ![0, 1] bcast_S50000x1_S50000x128_0_1
          (broadcastInDim S50000x1 ![0] bcast_S50000_S50000x1_0 (W (Proc.devRef .tc main_v38)))) := by
  after_results_simp

/-- The three stretches together are `agg`. -/
theorem agg1 : StableHlo.after hostOps1_2 (StableHlo.after hostOps1_1 (StableHlo.after hostOps1 W)) (Proc.devRef .tc main_v41)
    = agg (F := Ideal) (W (Proc.devRef .tc main_v23)) (W (Proc.devRef .tc main_v1)) (W (Proc.devRef .tc main_v3)) := by
  rw [div1, clip1_keep, clip1, sum1, deg1, one1]
  rfl

/-! ### The third aggregation's three host stretches, from any contents `W` -/

/-- The scatter-added gathered rows. -/
theorem sum2 : StableHlo.after hostOps2 W (Proc.devRef .tc main_v56)
    = Host.scatterAdd (F := Ideal) (φ := .f32) scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 (W (Proc.devRef .tc main_v3)))
      (Host.gather gather_S50000x128_S1600000x1_S1600000x128_1_0_n_n_0_1_1128 (W (Proc.devRef .tc main_v42))
        (broadcastInDim S1600000x1 ![0] bcast_S1600000_S1600000x1_0
          (select (cmpi .slt (W (Proc.devRef .tc main_v1)) (broadcastInDim S1600000 ![] bcast_S_S1600000 (constantI S_ 32 0#32)))
            (addi (W (Proc.devRef .tc main_v1)) (broadcastInDim S1600000 ![] bcast_S_S1600000 (constantI S_ 32 50000#32))) (W (Proc.devRef .tc main_v1))))) := by
  after_results_simp

/-- The in-degrees. -/
theorem deg2 : StableHlo.after hostOps2 W (Proc.devRef .tc main_v46)
    = Host.scatterAdd (F := Ideal) (φ := .f32) scatter_S50000_S1600000x1_S1600000_n_0_0_1
      (broadcastInDim S50000 ![] bcast_S_S50000 (constant (F := Ideal) S_ .f32 0x00000000#32))
      (broadcastInDim S1600000x1 ![0] bcast_S1600000_S1600000x1_0 (W (Proc.devRef .tc main_v3)))
      (broadcastInDim S1600000 ![] bcast_S_S1600000 (constant (F := Ideal) S_ .f32 0x3F800000#32)) := by
  after_results_simp

/-- The clip's lower bound. -/
theorem one2 : StableHlo.after hostOps2 W (Proc.devRef .tc main_cst_15) = constant (F := Ideal) S_ .f32 0x3F800000#32 := by
  after_results_simp

/-- The clipped degrees. -/
theorem clip2 : StableHlo.after hostOps2_1 W (Proc.devRef .tc main_v57)
    = maximumf (F := Ideal) (φ := .f32) (broadcastInDim S50000 ![] bcast_S_S50000 (id (W (Proc.devRef .tc main_cst_15)))) (W (Proc.devRef .tc main_v46)) := by
  after_results_simp
  rfl

/-- The clip leaves the sums alone. -/
theorem clip2_keep : StableHlo.after hostOps2_1 W (Proc.devRef .tc main_v56) = (W (Proc.devRef .tc main_v56)) := by
  after_results_simp

/-- The quotient. -/
theorem div2 : StableHlo.after hostOps2_2 W (Proc.devRef .tc main_v60)
    = Host.divf (F := Ideal) (φ := .f32) (W (Proc.devRef .tc main_v56))
        (broadcastInDim S50000x128 ![0, 1] bcast_S50000x1_S50000x128_0_1
          (broadcastInDim S50000x1 ![0] bcast_S50000_S50000x1_0 (W (Proc.devRef .tc main_v57)))) := by
  after_results_simp

/-- The three stretches together are `agg`. -/
theorem agg2 : StableHlo.after hostOps2_2 (StableHlo.after hostOps2_1 (StableHlo.after hostOps2 W)) (Proc.devRef .tc main_v60)
    = agg (F := Ideal) (W (Proc.devRef .tc main_v42)) (W (Proc.devRef .tc main_v1)) (W (Proc.devRef .tc main_v3)) := by
  rw [div2, clip2_keep, clip2, sum2, deg2, one2]
  rfl

end Stretches

variable (m : (ℓ : Loc nD τ sig) → Buf (Elt Ideal) ℓ) (ρ : Dev nD → PrngReg)

/-- The edge list's two rows pass the first region untouched. -/
theorem W4_v1 (c : Dev nD) : W4 m ρ c (Proc.devRef .tc main_v1) = srcOf (m ((c : Thread nD τ).loc main_arg1)) := by walk <;> rfl
theorem W4_v3 (c : Dev nD) : W4 m ρ c (Proc.devRef .tc main_v3) = dstOf (m ((c : Thread nD τ).loc main_arg1)) := by walk <;> rfl
/-- … and the second. -/
theorem W8_v1 (c : Dev nD) : W8 m ρ c (Proc.devRef .tc main_v1) = srcOf (m ((c : Thread nD τ).loc main_arg1)) := by walk <;> rfl
theorem W8_v3 (c : Dev nD) : W8 m ρ c (Proc.devRef .tc main_v3) = dstOf (m ((c : Thread nD τ).loc main_arg1)) := by walk <;> rfl

/-! ## The first layer's region -/

theorem V3_v22 (c : Dev nD) : V3 m ρ c main_v22 = agg (F := Ideal) (m ((c : Thread nD τ).loc main_arg0)) (srcOf (m ((c : Thread nD τ).loc main_arg1))) (dstOf (m ((c : Thread nD τ).loc main_arg1))) :=
  (agg0 (W0 m ρ c)).trans rfl
theorem V3_arg0 (c : Dev nD) : V3 m ρ c main_arg0 = m ((c : Thread nD τ).loc main_arg0) := by walk <;> rfl
theorem V3_arg3 (c : Dev nD) : V3 m ρ c main_arg3 = m ((c : Thread nD τ).loc main_arg3) := by walk <;> rfl
theorem V3_arg4 (c : Dev nD) : V3 m ρ c main_arg4 = m ((c : Thread nD τ).loc main_arg4) := by walk <;> rfl
theorem V3_arg5 (c : Dev nD) : V3 m ρ c main_arg5 = m ((c : Thread nD τ).loc main_arg5) := by walk <;> rfl

/-! ## The second layer's region -/

theorem V7_v41 (c : Dev nD) : V7 m ρ c main_v41 = agg (F := Ideal) (W4 m ρ c (Proc.devRef .tc main_v23)) (srcOf (m ((c : Thread nD τ).loc main_arg1))) (dstOf (m ((c : Thread nD τ).loc main_arg1))) :=
  (agg1 (W4 m ρ c)).trans (by rw [W4_v1 m ρ c, W4_v3 m ρ c])
theorem V7_v23 (c : Dev nD) : V7 m ρ c main_v23 = W4 m ρ c (Proc.devRef .tc main_v23) := by walk <;> rfl
theorem V7_arg6 (c : Dev nD) : V7 m ρ c main_arg6 = m ((c : Thread nD τ).loc main_arg6) := by walk <;> rfl
theorem V7_arg7 (c : Dev nD) : V7 m ρ c main_arg7 = m ((c : Thread nD τ).loc main_arg7) := by walk <;> rfl
theorem V7_arg8 (c : Dev nD) : V7 m ρ c main_arg8 = m ((c : Thread nD τ).loc main_arg8) := by walk <;> rfl

/-! ## The third layer's region -/

theorem V11_v60 (c : Dev nD) : V11 m ρ c main_v60 = agg (F := Ideal) (W8 m ρ c (Proc.devRef .tc main_v42)) (srcOf (m ((c : Thread nD τ).loc main_arg1))) (dstOf (m ((c : Thread nD τ).loc main_arg1))) :=
  (agg2 (W8 m ρ c)).trans (by rw [W8_v1 m ρ c, W8_v3 m ρ c])
theorem V11_v42 (c : Dev nD) : V11 m ρ c main_v42 = W8 m ρ c (Proc.devRef .tc main_v42) := by walk <;> rfl
theorem V11_arg9 (c : Dev nD) : V11 m ρ c main_arg9 = m ((c : Thread nD τ).loc main_arg9) := by walk <;> rfl
theorem V11_arg10 (c : Dev nD) : V11 m ρ c main_arg10 = m ((c : Thread nD τ).loc main_arg10) := by walk <;> rfl
theorem V11_arg11 (c : Dev nD) : V11 m ρ c main_arg11 = m ((c : Thread nD τ).loc main_arg11) := by walk <;> rfl

/-! ## The pooling region -/

theorem V12_v4 (c : Dev nD) :
    V12 m ρ c main_v4 = shapeCast S50000x1 (m ((c : Thread nD τ).loc main_arg2)) shapeCasts_S50000_S50000x1 := by
  walk <;> rfl

/-! ## The head's region -/

theorem V14_v62_0 (c : Dev nD) : V14 m ρ c main_v62_0 = W13 m ρ c (Proc.devRef .tc main_v62_0) := by walk <;> rfl
theorem V14_v62_1 (c : Dev nD) : V14 m ρ c main_v62_1 = W13 m ρ c (Proc.devRef .tc main_v62_1) := by walk <;> rfl
theorem V14_arg12 (c : Dev nD) : V14 m ρ c main_arg12 = m ((c : Thread nD τ).loc main_arg12) :=
  ((W15_arr m ρ c 2).trans (((dat4 (V14 m ρ) c).arrAt_in 2 rfl _).trans (A_eq4 (V14 m ρ) c 2))).symm.trans
    (W15_main_arg12 m ρ c)
theorem W13_arg13 (c : Dev nD) : W13 m ρ c (Proc.devRef .tc main_arg13) = m ((c : Thread nD τ).loc main_arg13) := by
  refine Eq.trans ?_ ((W15_of_ne m ρ c main_arg13 (by decide)).symm.trans (W15_main_arg13 m ρ c))
  symm
  dsimp only [W14]
  after_results
theorem V14_v63 (c : Dev nD) :
    V14 m ρ c main_v63 = shapeCast S1x1 (m ((c : Thread nD τ).loc main_arg13)) shapeCasts_S1_S1x1 := by
  dsimp only [V14, W14]
  after_results
  rw [W13_arg13]
  rfl

end Cert.Sage.Boundary

end
-- ==== Proof.Layers.lean ====
/-
  The three SAGE layers inside their pallas_calls: ten row blocks of 5000 nodes each; a block's result is the
  layer's function of the block's rows of the aggregated and the own features and of the whole weight matrices and
  bias; the blocks tile the [50000, 128] result array, so the array after each region is the layer's function of
  the arrays the region was entered with.

  The order of the file: a block of rows times the transpose of a weight matrix read at an entry (a sum over the
  128 features); the bias row read at an entry; each region's stored block at an entry (p, q) is
  max ((∑ₖ x0[p,k]·x2[q,k] + x3[q]) + ∑ₖ x1[p,k]·x4[q,k], 0); when x0, x1 are rows n·5000 … of two arrays and
  x2, x3, x4 are whole arrays this is the layer's entry (n·5000 + p, q); then, per region, which rows each window's
  block holds at each of the ten points, what a point writes back, that row r is covered by point r / 5000, and the
  array after the region.
-/
import proofs.«421996_j17197049053739_2_alg».proof.Proof.Gen.KernelIdeal.Frame
import proofs.«421996_j17197049053739_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.Sage

open Cert.KernelIdeal Cert.KernelIdeal.Gen Idealize.ShloMosaic.ValueIdx

/-! ## A block's rows against a weight matrix's rows -/

/-- Axis 0 of the left operand is the result's row. -/
theorem lhs_rowAxis (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
/-- Axis 1 of the left operand is summed over. -/
theorem lhs_sumAxis (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
/-- Axis 0 of the right operand is the result's column. -/
theorem rhs_rowAxis (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
/-- Axis 1 of the right operand is summed over. -/
theorem rhs_sumAxis (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-- The product of a block of rows with the transpose of a weight matrix, started from zero: at (p, q) the sum over
    the 128 features k of row p's k-th entry times the weight row q's k-th entry. -/
theorem rowsTimesWeightRows (x : FVec Ideal S5000x128 .bf16) (w : FVec Ideal S128x128 .bf16) (p : Fin 5000) (q : Fin 128) :
    matmul dot_S5000x128_S128x128_S5000x128_1_1_0_0_n_n none x w (constant (F := Ideal) S5000x128 .f32 0x00000000#32) (ix2 p q)
      = ∑ k : Fin 128, x (ix2 p k) * w (ix2 q k) := by
  simp only [matmul]
  rw [Ideal.matmul_constant_zero_apply, ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q) ((contrEquiv1 dot_S5000x128_S128x128_S5000x128_1_1_0_0_n_n 128 rfl rfl).symm k) = ix2 p k := funext fun a => Fin.ext (by
    match a with
    | ⟨0, _⟩ => exact lhs_rowAxis _ _
    | ⟨1, _⟩ => exact (lhs_sumAxis _ _).trans hk)
  have er : dot_S5000x128_S128x128_S5000x128_1_1_0_0_n_n.rhsIdx (ix2 p q) ((contrEquiv1 dot_S5000x128_S128x128_S5000x128_1_1_0_0_n_n 128 rfl rfl).symm k) = ix2 q k := funext fun a => Fin.ext (by
    match a with
    | ⟨0, _⟩ => exact rhs_rowAxis _ _
    | ⟨1, _⟩ => exact (rhs_sumAxis _ _).trans hk)
  rw [el, er]

/-- The bias, laid out as one row and repeated down the block, reads its q-th entry at (p, q). -/
theorem biasRow_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-! ## The stored block of each region at an entry

The three regions run the same arithmetic: both feature blocks and both weight matrices pass through a change of
float format, which is the identity on the extended reals; the two products start from zero; the bias row is added
to the first product, the second product to that; the positive part is the maximum with the constant zero. -/

/-- The first layer's block at (p, q). -/
theorem pay0_apply (x0 x1 : Vec Ideal S5000x128 .f32) (x2 x4 : Vec Ideal S128x128 .f32) (x3 : Vec Ideal S128 .f32)
    (p : Fin 5000) (q : Fin 128) :
    k0_pay1 (F := Ideal) x0 x1 x2 x4 x3 (ix2 p q)
      = max (((∑ k : Fin 128, x0 (ix2 p k) * x2 (ix2 q k)) + x3 (ix1 q)) + ∑ k : Fin 128, x1 (ix2 p k) * x4 (ix2 q k)) 0 := by
  unfold k0_pay1
  rw [shapeCast_self]
  rw [maximumf_apply, addf_apply, addf_apply, broadcast_apply, biasRow_apply, rowsTimesWeightRows, rowsTimesWeightRows]
  show max _ (Ideal.ofBits .f32 0x00000000#32) = _
  rw [Ideal.ofBits_zero_f32]
  rfl

/-- The second layer's block at (p, q). -/
theorem pay1_apply (x0 x1 : Vec Ideal S5000x128 .f32) (x2 x4 : Vec Ideal S128x128 .f32) (x3 : Vec Ideal S128 .f32)
    (p : Fin 5000) (q : Fin 128) :
    k1_pay1 (F := Ideal) x0 x1 x2 x4 x3 (ix2 p q)
      = max (((∑ k : Fin 128, x0 (ix2 p k) * x2 (ix2 q k)) + x3 (ix1 q)) + ∑ k : Fin 128, x1 (ix2 p k) * x4 (ix2 q k)) 0 := by
  unfold k1_pay1
  rw [shapeCast_self, shapeCast_self]
  rw [maximumf_apply, addf_apply, addf_apply, broadcast_apply, biasRow_apply, rowsTimesWeightRows, rowsTimesWeightRows]
  show max _ (Ideal.ofBits .f32 0x00000000#32) = _
  rw [Ideal.ofBits_zero_f32]
  rfl

/-- The third layer's block at (p, q). -/
theorem pay2_apply (x0 x1 : Vec Ideal S5000x128 .f32) (x2 x4 : Vec Ideal S128x128 .f32) (x3 : Vec Ideal S128 .f32)
    (p : Fin 5000) (q : Fin 128) :
    k2_pay1 (F := Ideal) x0 x1 x2 x4 x3 (ix2 p q)
      = max (((∑ k : Fin 128, x0 (ix2 p k) * x2 (ix2 q k)) + x3 (ix1 q)) + ∑ k : Fin 128, x1 (ix2 p k) * x4 (ix2 q k)) 0 := by
  unfold k2_pay1
  rw [shapeCast_self, shapeCast_self]
  rw [maximumf_apply, addf_apply, addf_apply, broadcast_apply, biasRow_apply, rowsTimesWeightRows, rowsTimesWeightRows]
  show max _ (Ideal.ofBits .f32 0x00000000#32) = _
  rw [Ideal.ofBits_zero_f32]
  rfl

/-! ## From a block's entry to the layer's entry -/

/-- One block of 5000 rows, the n-th: when the two row blocks are rows n·5000 … n·5000 + 4999 of the aggregated and
    the own features, and the weights and bias are the whole arrays, a block `f` with the layer's arithmetic at every
    entry has, at (p, q), the layer's entry (n·5000 + p, q). -/
theorem block_eq_layer (A X : SNodes.Idx → EReal) (Wl : SWt.Idx → EReal) (b : SBias.Idx → EReal) (Wr : SWt.Idx → EReal)
    (f x0 x1 : Vec Ideal S5000x128 .f32) (x2 x4 : Vec Ideal S128x128 .f32) (x3 : Vec Ideal S128 .f32) (n : Nat)
    (hf : ∀ (p : Fin 5000) (q : Fin 128), f (ix2 p q)
      = max (((∑ k : Fin 128, x0 (ix2 p k) * x2 (ix2 q k)) + x3 (ix1 q)) + ∑ k : Fin 128, x1 (ix2 p k) * x4 (ix2 q k)) 0)
    (h0 : ∀ (p : Fin 5000) (k : Fin 128) (r : Fin 50000), r.val = n * 5000 + p.val → x0 (ix2 p k) = A (ix2 r k))
    (h1 : ∀ (p : Fin 5000) (k : Fin 128) (r : Fin 50000), r.val = n * 5000 + p.val → x1 (ix2 p k) = X (ix2 r k))
    (h2 : x2 = Wl) (h3 : x3 = b) (h4 : x4 = Wr)
    (j : S5000x128.Idx) (i : SNodes.Idx) (hi0 : (i 0).val = n * 5000 + (j 0).val) (hi1 : (i 1).val = (j 1).val) :
    f j = layer A X Wl b Wr i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = n * 5000 + p.val := hi0
  obtain rfl : s = q := Fin.ext hi1
  have e0 : ∀ k : Fin 128, x0 (ix2 p k) = A (ix2 r k) := fun k => h0 p k r hr
  have e1 : ∀ k : Fin 128, x1 (ix2 p k) = X (ix2 r k) := fun k => h1 p k r hr
  rw [hf]
  simp only [e0, e1, h2, h3, h4]
  rfl

/-- Every load and the one store of a block start at its corner. -/
theorem zeroOff2 : (![0, 0] : Fin 2 → Nat) = fun _ => 0 := funext fun a => by fin_cases a <;> rfl
theorem zeroOff1 : (![0] : Fin 1 → Nat) = fun _ => 0 := funext fun a => by fin_cases a <;> rfl

end Cert.Sage

/-! # The first layer's region -/

namespace Cert.Sage.Layer0

open Cert.KernelIdeal Cert.KernelIdeal.Gen Cert.Sage Idealize.ShloMosaic.ValueIdx

variable (V : (c : Dev nD) → (b : Ref sig .tc) → Buf (Elt Ideal) ((c : Thread nD τ).loc b))

/-- The block index of each window at each of the ten points: the two feature windows and the result move down the
    rows with the point; the weights and the bias stay. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated features' block at point t is rows 5000 t … 5000 t + 4999 of the array. -/
theorem aggBlock (c : Dev nD) (t : Fin cfg0.N) (p : Fin 5000) (k : Fin 128) (r : Fin 50000) (hr : r.val = t.val * 5000 + p.val) :
    (iblk0 (F := Ideal) V c 0 t : Vec Ideal S5000x128 .f32) (ix2 p k) = (V c main_v22 : SNodes.Idx → EReal) (ix2 r k) := by
  obtain ⟨e0, e1, -⟩ := blockIndex t
  unfold iblk0
  rw [View.read_apply]
  show V c main_v22 _ = V c main_v22 _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The own features' block at point t is the same rows of its array. -/
theorem ownBlock (c : Dev nD) (t : Fin cfg0.N) (p : Fin 5000) (k : Fin 128) (r : Fin 50000) (hr : r.val = t.val * 5000 + p.val) :
    (iblk0 (F := Ideal) V c 1 t : Vec Ideal S5000x128 .f32) (ix2 p k) = (V c main_arg0 : SNodes.Idx → EReal) (ix2 r k) := by
  obtain ⟨-, -, e0, e1, -⟩ := blockIndex t
  unfold iblk0
  rw [View.read_apply]
  show V c main_arg0 _ = V c main_arg0 _
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The neighbour weights' one block is the whole matrix. -/
theorem wlBlock (c : Dev nD) (t : Fin cfg0.N) :
    (iblk0 (F := Ideal) V c 2 t : Vec Ideal S128x128 .f32) = (V c main_arg3 : SWt.Idx → EReal) := by
  obtain ⟨-, -, -, -, e0, e1, -⟩ := blockIndex t
  funext y
  unfold iblk0
  rw [View.read_apply]
  show V c main_arg3 _ = V c main_arg3 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias's one block is the whole vector. -/
theorem biasBlock (c : Dev nD) (t : Fin cfg0.N) :
    (iblk0 (F := Ideal) V c 3 t : Vec Ideal S128 .f32) = (V c main_arg4 : SBias.Idx → EReal) := by
  obtain ⟨-, -, -, -, -, -, e0, -⟩ := blockIndex t
  funext y
  unfold iblk0
  rw [View.read_apply]
  show V c main_arg4 _ = V c main_arg4 y
  refine congrArg _ (funext fun a => Fin.ext ?_)
  match a with
  | ⟨0, _⟩ => show win0_3.index t (0 : Fin 1) * 128 + 1 * (y 0).val = (y 0).val; rw [e0]; omega

/-- The own-feature weights' one block is the whole matrix. -/
theorem wrBlock (c : Dev nD) (t : Fin cfg0.N) :
    (iblk0 (F := Ideal) V c 4 t : Vec Ideal S128x128 .f32) = (V c main_arg5 : SWt.Idx → EReal) := by
  obtain ⟨-, -, -, -, -, -, -, e0, e1, -⟩ := blockIndex t
  funext y
  unfold iblk0
  rw [View.read_apply]
  show V c main_arg5 _ = V c main_arg5 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- What point t writes back is block t of the layer's function of the arrays the region was entered with. -/
theorem flushed_eq (c : Dev nD) (t : Fin cfg0.N) :
    (dat0 (F := Ideal) V c).flushed 5 t = ((cfg0.win 5).blk t).view.read (Elt Ideal)
      (layer (V c main_v22) (V c main_arg0) (V c main_arg3) (V c main_arg4) (V c main_arg5)) := by
  show (cfg0.win 5).cut (grid0.coords t) ((dat0 (F := Ideal) V c).after 5 t) = _
  rw [after0_5]
  unfold out0_5
  rw [View.canon_unit_zero zeroOff2]
  simp only [View.ld_unit_zero (S := S5000x128) zeroOff2, View.ld_unit_zero (S := S128x128) zeroOff2, View.ld_unit_zero (S := S128) zeroOff1]
  obtain ⟨-, -, -, -, -, -, -, -, -, e0, e1⟩ := blockIndex t
  funext j
  rw [View.read_apply]
  refine block_eq_layer (V c main_v22) (V c main_arg0) (V c main_arg3) (V c main_arg4) (V c main_arg5)
    (k0_pay1 (F := Ideal) (iblk0 (F := Ideal) V c 0 t) (iblk0 (F := Ideal) V c 1 t) (iblk0 (F := Ideal) V c 2 t) (iblk0 (F := Ideal) V c 4 t) (iblk0 (F := Ideal) V c 3 t))
    (iblk0 (F := Ideal) V c 0 t) (iblk0 (F := Ideal) V c 1 t) (iblk0 (F := Ideal) V c 2 t) (iblk0 (F := Ideal) V c 4 t) (iblk0 (F := Ideal) V c 3 t) t.val
    (pay0_apply _ _ _ _ _) (aggBlock V c t) (ownBlock V c t) (wlBlock V c t) (biasBlock V c t) (wrBlock V c t) j _ ?_ ?_
  · show win0_5.index t (0 : Fin 2) * 5000 + 1 * (j 0).val = t.val * 5000 + (j 0).val; rw [e0]; omega
  · show win0_5.index t (1 : Fin 2) * 128 + 1 * (j 1).val = (j 1).val; rw [e1]; omega

/-- An entry is in point t's block iff its row is one of rows 5000 t … 5000 t + 4999. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every row r lies in the block of point r / 5000. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; rw [hN]; omega⟩, rfl⟩
  obtain ⟨-, -, -, -, -, -, -, -, -, e0, e1⟩ := blockIndex t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- The result array of the first layer's region. -/
theorem final (c : Dev nD) :
    (dat0 (F := Ideal) V c).arrAt 5 cfg0.N
      = layer (V c main_v22) (V c main_arg0) (V c main_arg3) (V c main_arg4) (V c main_arg5) :=
  (dat0 (F := Ideal) V c).arrAt_eq_of_cover 5 (layer (V c main_v22) (V c main_arg0) (V c main_arg3) (V c main_arg4) (V c main_arg5))
    (fun t _ => flushed_eq V c t) covered

end Cert.Sage.Layer0

/-! # The second layer's region -/

namespace Cert.Sage.Layer1

open Cert.KernelIdeal Cert.KernelIdeal.Gen Cert.Sage Idealize.ShloMosaic.ValueIdx

variable (V : (c : Dev nD) → (b : Ref sig .tc) → Buf (Elt Ideal) ((c : Thread nD τ).loc b))

/-- The block index of each window at each of the ten points: the two feature windows and the result move down the
    rows with the point; the weights and the bias stay. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated features' block at point t is rows 5000 t … 5000 t + 4999 of the array. -/
theorem aggBlock (c : Dev nD) (t : Fin cfg1.N) (p : Fin 5000) (k : Fin 128) (r : Fin 50000) (hr : r.val = t.val * 5000 + p.val) :
    (iblk1 (F := Ideal) V c 0 t : Vec Ideal S5000x128 .f32) (ix2 p k) = (V c main_v41 : SNodes.Idx → EReal) (ix2 r k) := by
  obtain ⟨e0, e1, -⟩ := blockIndex t
  unfold iblk1
  rw [View.read_apply]
  show V c main_v41 _ = V c main_v41 _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The own features' block (the first layer's result) at point t is the same rows of its array. -/
theorem ownBlock (c : Dev nD) (t : Fin cfg1.N) (p : Fin 5000) (k : Fin 128) (r : Fin 50000) (hr : r.val = t.val * 5000 + p.val) :
    (iblk1 (F := Ideal) V c 1 t : Vec Ideal S5000x128 .f32) (ix2 p k) = (V c main_v23 : SNodes.Idx → EReal) (ix2 r k) := by
  obtain ⟨-, -, e0, e1, -⟩ := blockIndex t
  unfold iblk1
  rw [View.read_apply]
  show V c main_v23 _ = V c main_v23 _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The neighbour weights' one block is the whole matrix. -/
theorem wlBlock (c : Dev nD) (t : Fin cfg1.N) :
    (iblk1 (F := Ideal) V c 2 t : Vec Ideal S128x128 .f32) = (V c main_arg6 : SWt.Idx → EReal) := by
  obtain ⟨-, -, -, -, e0, e1, -⟩ := blockIndex t
  funext y
  unfold iblk1
  rw [View.read_apply]
  show V c main_arg6 _ = V c main_arg6 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias's one block is the whole vector. -/
theorem biasBlock (c : Dev nD) (t : Fin cfg1.N) :
    (iblk1 (F := Ideal) V c 3 t : Vec Ideal S128 .f32) = (V c main_arg7 : SBias.Idx → EReal) := by
  obtain ⟨-, -, -, -, -, -, e0, -⟩ := blockIndex t
  funext y
  unfold iblk1
  rw [View.read_apply]
  show V c main_arg7 _ = V c main_arg7 y
  refine congrArg _ (funext fun a => Fin.ext ?_)
  match a with
  | ⟨0, _⟩ => show win1_3.index t (0 : Fin 1) * 128 + 1 * (y 0).val = (y 0).val; rw [e0]; omega

/-- The own-feature weights' one block is the whole matrix. -/
theorem wrBlock (c : Dev nD) (t : Fin cfg1.N) :
    (iblk1 (F := Ideal) V c 4 t : Vec Ideal S128x128 .f32) = (V c main_arg8 : SWt.Idx → EReal) := by
  obtain ⟨-, -, -, -, -, -, -, e0, e1, -⟩ := blockIndex t
  funext y
  unfold iblk1
  rw [View.read_apply]
  show V c main_arg8 _ = V c main_arg8 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- What point t writes back is block t of the layer's function of the arrays the region was entered with. -/
theorem flushed_eq (c : Dev nD) (t : Fin cfg1.N) :
    (dat1 (F := Ideal) V c).flushed 5 t = ((cfg1.win 5).blk t).view.read (Elt Ideal)
      (layer (V c main_v41) (V c main_v23) (V c main_arg6) (V c main_arg7) (V c main_arg8)) := by
  show (cfg1.win 5).cut (grid1.coords t) ((dat1 (F := Ideal) V c).after 5 t) = _
  rw [after1_5]
  unfold out1_5
  rw [View.canon_unit_zero zeroOff2]
  simp only [View.ld_unit_zero (S := S5000x128) zeroOff2, View.ld_unit_zero (S := S128x128) zeroOff2, View.ld_unit_zero (S := S128) zeroOff1]
  obtain ⟨-, -, -, -, -, -, -, -, -, e0, e1⟩ := blockIndex t
  funext j
  rw [View.read_apply]
  refine block_eq_layer (V c main_v41) (V c main_v23) (V c main_arg6) (V c main_arg7) (V c main_arg8)
    (k1_pay1 (F := Ideal) (iblk1 (F := Ideal) V c 0 t) (iblk1 (F := Ideal) V c 1 t) (iblk1 (F := Ideal) V c 2 t) (iblk1 (F := Ideal) V c 4 t) (iblk1 (F := Ideal) V c 3 t))
    (iblk1 (F := Ideal) V c 0 t) (iblk1 (F := Ideal) V c 1 t) (iblk1 (F := Ideal) V c 2 t) (iblk1 (F := Ideal) V c 4 t) (iblk1 (F := Ideal) V c 3 t) t.val
    (pay1_apply _ _ _ _ _) (aggBlock V c t) (ownBlock V c t) (wlBlock V c t) (biasBlock V c t) (wrBlock V c t) j _ ?_ ?_
  · show win1_5.index t (0 : Fin 2) * 5000 + 1 * (j 0).val = t.val * 5000 + (j 0).val; rw [e0]; omega
  · show win1_5.index t (1 : Fin 2) * 128 + 1 * (j 1).val = (j 1).val; rw [e1]; omega

/-- An entry is in point t's block iff its row is one of rows 5000 t … 5000 t + 4999. -/
theorem mem_block (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v42).slice (win1_5.rect t)).set ↔ _
  rw [View.set_slice_whole, Rect.mem_set_unit]
  exact Iff.rfl

/-- Every row r lies in the block of point r / 5000. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; rw [hN]; omega⟩, rfl⟩
  obtain ⟨-, -, -, -, -, -, -, -, -, e0, e1⟩ := blockIndex t
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- The result array of the second layer's region. -/
theorem final (c : Dev nD) :
    (dat1 (F := Ideal) V c).arrAt 5 cfg1.N
      = layer (V c main_v41) (V c main_v23) (V c main_arg6) (V c main_arg7) (V c main_arg8) :=
  (dat1 (F := Ideal) V c).arrAt_eq_of_cover 5 (layer (V c main_v41) (V c main_v23) (V c main_arg6) (V c main_arg7) (V c main_arg8))
    (fun t _ => flushed_eq V c t) covered

end Cert.Sage.Layer1

/-! # The third layer's region -/

namespace Cert.Sage.Layer2

open Cert.KernelIdeal Cert.KernelIdeal.Gen Cert.Sage Idealize.ShloMosaic.ValueIdx

variable (V : (c : Dev nD) → (b : Ref sig .tc) → Buf (Elt Ideal) ((c : Thread nD τ).loc b))

/-- The block index of each window at each of the ten points: the two feature windows and the result move down the
    rows with the point; the weights and the bias stay. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The aggregated features' block at point t is rows 5000 t … 5000 t + 4999 of the array. -/
theorem aggBlock (c : Dev nD) (t : Fin cfg2.N) (p : Fin 5000) (k : Fin 128) (r : Fin 50000) (hr : r.val = t.val * 5000 + p.val) :
    (iblk2 (F := Ideal) V c 0 t : Vec Ideal S5000x128 .f32) (ix2 p k) = (V c main_v60 : SNodes.Idx → EReal) (ix2 r k) := by
  obtain ⟨e0, e1, -⟩ := blockIndex t
  unfold iblk2
  rw [View.read_apply]
  show V c main_v60 _ = V c main_v60 _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The own features' block (the second layer's result) at point t is the same rows of its array. -/
theorem ownBlock (c : Dev nD) (t : Fin cfg2.N) (p : Fin 5000) (k : Fin 128) (r : Fin 50000) (hr : r.val = t.val * 5000 + p.val) :
    (iblk2 (F := Ideal) V c 1 t : Vec Ideal S5000x128 .f32) (ix2 p k) = (V c main_v42 : SNodes.Idx → EReal) (ix2 r k) := by
  obtain ⟨-, -, e0, e1, -⟩ := blockIndex t
  unfold iblk2
  rw [View.read_apply]
  show V c main_v42 _ = V c main_v42 _
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- The neighbour weights' one block is the whole matrix. -/
theorem wlBlock (c : Dev nD) (t : Fin cfg2.N) :
    (iblk2 (F := Ideal) V c 2 t : Vec Ideal S128x128 .f32) = (V c main_arg9 : SWt.Idx → EReal) := by
  obtain ⟨-, -, -, -, e0, e1, -⟩ := blockIndex t
  funext y
  unfold iblk2
  rw [View.read_apply]
  show V c main_arg9 _ = V c main_arg9 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The bias's one block is the whole vector. -/
theorem biasBlock (c : Dev nD) (t : Fin cfg2.N) :
    (iblk2 (F := Ideal) V c 3 t : Vec Ideal S128 .f32) = (V c main_arg10 : SBias.Idx → EReal) := by
  obtain ⟨-, -, -, -, -, -, e0, -⟩ := blockIndex t
  funext y
  unfold iblk2
  rw [View.read_apply]
  show V c main_arg10 _ = V c main_arg10 y
  refine congrArg _ (funext fun a => Fin.ext ?_)
  match a with
  | ⟨0, _⟩ => show win2_3.index t (0 : Fin 1) * 128 + 1 * (y 0).val = (y 0).val; rw [e0]; omega

/-- The own-feature weights' one block is the whole matrix. -/
theorem wrBlock (c : Dev nD) (t : Fin cfg2.N) :
    (iblk2 (F := Ideal) V c 4 t : Vec Ideal S128x128 .f32) = (V c main_arg11 : SWt.Idx → EReal) := by
  obtain ⟨-, -, -, -, -, -, -, e0, e1, -⟩ := blockIndex t
  funext y
  unfold iblk2
  rw [View.read_apply]
  show V c main_arg11 _ = V c main_arg11 y
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- What point t writes back is block t of the layer's function of the arrays the region was entered with. -/
theorem flushed_eq (c : Dev nD) (t : Fin cfg2.N) :
    (dat2 (F := Ideal) V c).flushed 5 t = ((cfg2.win 5).blk t).view.read (Elt Ideal)
      (layer (V c main_v60) (V c main_v42) (V c main_arg9) (V c main_arg10) (V c main_arg11)) := by
  show (cfg2.win 5).cut (grid2.coords t) ((dat2 (F := Ideal) V c).after 5 t) = _
  rw [after2_5]
  unfold out2_5
  rw [View.canon_unit_zero zeroOff2]
  simp only [View.ld_unit_zero (S := S5000x128) zeroOff2, View.ld_unit_zero (S := S128x128) zeroOff2, View.ld_unit_zero (S := S128) zeroOff1]
  obtain ⟨-, -, -, -, -, -, -, -, -, e0, e1⟩ := blockIndex t
  funext j
  rw [View.read_apply]
  refine block_eq_layer (V c main_v60) (V c main_v42) (V c main_arg9) (V c main_arg10) (V c main_arg11)
    (k2_pay1 (F := Ideal) (iblk2 (F := Ideal) V c 0 t) (iblk2 (F := Ideal) V c 1 t) (iblk2 (F := Ideal) V c 2 t) (iblk2 (F := Ideal) V c 4 t) (iblk2 (F := Ideal) V c 3 t))
    (iblk2 (F := Ideal) V c 0 t) (iblk2 (F := Ideal) V c 1 t) (iblk2 (F := Ideal) V c 2 t) (iblk2 (F := Ideal) V c 4 t) (iblk2 (F := Ideal) V c 3 t) t.val
    (pay2_apply _ _ _ _ _) (aggBlock V c t) (ownBlock V c t) (wlBlock V c t) (biasBlock V c t) (wrBlock V c t) j _ ?_ ?_
  · show win2_5.index t (0 : Fin 2) * 5000 + 1 * (j 0).val = t.val * 5000 + (j 0).val; rw [e0]; omega
  · show win2_5.index t (1 : Fin 2) * 128 + 1 * (j 1).val = (j 1).val; rw [e1]; omega

/-- An entry is in point t's block iff its row is one of rows 5000 t … 5000 t + 4999. -/
theorem mem_block (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v61).slice (win2_5.rect t)).set ↔ _
  rw [View.set_slice_whole, Rect.mem_set_unit]
  exact Iff.rfl

/-- Every row r lies in the block of point r / 5000. -/
theorem covered (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show _ < grid2.N; rw [hN]; omega⟩, rfl⟩
  obtain ⟨-, -, -, -, -, -, -, -, -, e0, e1⟩ := blockIndex t
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 128 ≤ (i 1).val ∧ (i 1).val < win2_5.index t (1 : Fin 2) * 128 + 128; rw [e1]; omega

/-- The result array of the third layer's region. -/
theorem final (c : Dev nD) :
    (dat2 (F := Ideal) V c).arrAt 5 cfg2.N
      = layer (V c main_v60) (V c main_v42) (V c main_arg9) (V c main_arg10) (V c main_arg11) :=
  (dat2 (F := Ideal) V c).arrAt_eq_of_cover 5 (layer (V c main_v60) (V c main_v42) (V c main_arg9) (V c main_arg10) (V c main_arg11))
    (fun t _ => flushed_eq V c t) covered

end Cert.Sage.Layer2

end
-- ==== Proof.PoolK.lean ====
/-
  The pooling pallas_call: fifty grid points, each adding to the two resident [512, 128] output blocks the product
  of the point's one-hot matrix (graph id of each of its thousand nodes against the 512 graphs) with the point's
  node rows, and with a matrix of ones; the blocks are zeroed at the first point. After the last point the two
  result arrays hold the block-by-block sums.
-/
import proofs.«421996_j17197049053739_2_alg».proof.Proof.Gen.KernelIdeal.Frame
import proofs.«421996_j17197049053739_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.Sage.PoolK

open Cert.KernelIdeal Cert.KernelIdeal.Gen Cert.Sage Idealize.ShloMosaic.ValueIdx

/-! ## What one grid point leaves in the two resident blocks -/

section Pieces
variable {F : FTy → Type} [FloatOps F]

/-- The zero offset pair, as a constant function. -/
theorem zeroOff : (![0, 0] : Fin 2 → Nat) = fun _ => 0 := funext fun a => by fin_cases a <;> rfl

/-- A later point leaves, in the feature-sum block holding `s`, the accumulating payload of its ids, its rows and `s`. -/
theorem later_sum (c : Dev nD) (i : grid3.Coords) (a1 : Memref sig .tc .vmem S1000x128 .f32) (h1 : a1.IsWhole)
    (a2 : Memref sig .tc .vmem S1000x1 .i32) (h2 : a2.IsWhole) (a3 : Memref sig .tc .vmem S512x128 .f32) (h3 : a3.IsWhole)
    (a4 : Memref sig .tc .vmem S512x128 .f32) (h4 : a4.IsWhole) (hc : ¬cond3_0 i)
    (x : Vec F S1000x128 .f32) (ids : Vec F S1000x1 .i32) (s n : Vec F S512x128 .f32) :
    out3_B_2 c i a1 h1 a2 h2 a3 h3 a4 h4 hc x ids s n = k3_pay4 ids x s := by
  unfold out3_B_2
  rw [View.read_writes_eq_canon _ _ _ (cover3_B_2 c i a1 h1 a2 h2 a3 h3 a4 h4 hc x ids s n)]
  unfold kernelRun3_B
  dsimp only
  sl_unfold_words
  rw [View.canon_unit_zero zeroOff]
  simp only [View.readAt_eq_ld, h1.read_unread, h2.read_unread, h3.read_unread, View.ld_unit_zero (S := S1000x128) zeroOff,
    View.ld_unit_zero (S := S1000x1) zeroOff, View.ld_unit_zero (S := S512x128) zeroOff]

/-- A later point leaves, in the count block holding `n`, the counting payload of its ids and `n`. -/
theorem later_cnt (c : Dev nD) (i : grid3.Coords) (a1 : Memref sig .tc .vmem S1000x128 .f32) (h1 : a1.IsWhole)
    (a2 : Memref sig .tc .vmem S1000x1 .i32) (h2 : a2.IsWhole) (a3 : Memref sig .tc .vmem S512x128 .f32) (h3 : a3.IsWhole)
    (a4 : Memref sig .tc .vmem S512x128 .f32) (h4 : a4.IsWhole) (hc : ¬cond3_0 i)
    (x : Vec F S1000x128 .f32) (ids : Vec F S1000x1 .i32) (s n : Vec F S512x128 .f32) :
    out3_B_3 c i a1 h1 a2 h2 a3 h3 a4 h4 hc x ids s n = k3_pay5 ids n := by
  unfold out3_B_3
  rw [View.read_writes_eq_canon _ _ _ (cover3_B_3 c i a1 h1 a2 h2 a3 h3 a4 h4 hc x ids s n)]
  unfold kernelRun3_B
  dsimp only
  sl_unfold_words
  rw [View.canon_unit_zero zeroOff]
  simp only [View.readAt_eq_ld, h1.read_unread, h2.read_unread, h4.read_unread, View.ld_unit_zero (S := S1000x128) zeroOff,
    View.ld_unit_zero (S := S1000x1) zeroOff, View.ld_unit_zero (S := S512x128) zeroOff]

/-- The first point zeroes the feature-sum block, reads the zeros back and leaves the accumulating payload over them. -/
theorem first_sum (c : Dev nD) (i : grid3.Coords) (a1 : Memref sig .tc .vmem S1000x128 .f32) (h1 : a1.IsWhole)
    (a2 : Memref sig .tc .vmem S1000x1 .i32) (h2 : a2.IsWhole) (a3 : Memref sig .tc .vmem S512x128 .f32) (h3 : a3.IsWhole)
    (a4 : Memref sig .tc .vmem S512x128 .f32) (h4 : a4.IsWhole) (hc : cond3_0 i)
    (x : Vec F S1000x128 .f32) (ids : Vec F S1000x1 .i32) :
    out3_A_2 c i a1 h1 a2 h2 a3 h3 a4 h4 hc x ids = k3_pay4 ids x k3_pay1 := by
  unfold out3_A_2
  rw [View.read_writes_eq_canon _ _ _ (cover3_A_2 c i a1 h1 a2 h2 a3 h3 a4 h4 hc x ids)]
  unfold kernelRun3_A
  dsimp only
  sl_unfold_words
  rw [View.canon_cons_unit_zero (S := S512x128) zeroOff, View.readCov_unit_zero (S := S512x128) _ zeroOff]
  simp only [View.readAt_eq_ld, h1.read_unread, h2.read_unread, View.ld_unit_zero (S := S1000x128) zeroOff,
    View.ld_unit_zero (S := S1000x1) zeroOff]

/-- The first point zeroes the count block, reads the zeros back and leaves the counting payload over them. -/
theorem first_cnt (c : Dev nD) (i : grid3.Coords) (a1 : Memref sig .tc .vmem S1000x128 .f32) (h1 : a1.IsWhole)
    (a2 : Memref sig .tc .vmem S1000x1 .i32) (h2 : a2.IsWhole) (a3 : Memref sig .tc .vmem S512x128 .f32) (h3 : a3.IsWhole)
    (a4 : Memref sig .tc .vmem S512x128 .f32) (h4 : a4.IsWhole) (hc : cond3_0 i)
    (x : Vec F S1000x128 .f32) (ids : Vec F S1000x1 .i32) :
    out3_A_3 c i a1 h1 a2 h2 a3 h3 a4 h4 hc x ids = k3_pay5 ids k3_pay2 := by
  unfold out3_A_3
  rw [View.read_writes_eq_canon _ _ _ (cover3_A_3 c i a1 h1 a2 h2 a3 h3 a4 h4 hc x ids)]
  unfold kernelRun3_A
  dsimp only
  sl_unfold_words
  rw [View.canon_cons_unit_zero (S := S512x128) zeroOff, View.readCov_unit_zero (S := S512x128) _ zeroOff]
  simp only [View.readAt_eq_ld, h1.read_unread, h2.read_unread, View.ld_unit_zero (S := S1000x128) zeroOff,
    View.ld_unit_zero (S := S1000x1) zeroOff]

end Pieces

/-! ## The payloads read at an index, over the extended reals -/

section Payloads

/-- The pooling contraction: the one-hot matrix [1000, 512] against the rows [1000, 128], both on their axis 0. -/
abbrev D : DotDims S1000x512 S1000x128 S512x128 := dot_S1000x512_S1000x128_S512x128_0_0_1_1_n_n

theorem D_lhs0 (j : S512x128.Idx) (q : D.contr.Idx) : (D.lhsIdx j q 0).val = (q ⟨0, by decide⟩).val :=
  D.lhsIdx_val_of_single rfl j q
theorem D_lhs1 (j : S512x128.Idx) (q : D.contr.Idx) : (D.lhsIdx j q 1).val = (j 0).val := by
  unfold DotDims.lhsIdx
  rw [dif_neg (show ¬(1 : Fin S1000x512.rank) ∈ D.lhsBatch by decide), dif_pos (show (1 : Fin S1000x512.rank) ∈ D.lhsNonContracting by decide)]
  rfl
theorem D_rhs0 (j : S512x128.Idx) (q : D.contr.Idx) : (D.rhsIdx j q 0).val = (q ⟨0, by decide⟩).val :=
  D.rhsIdx_val_of_single rfl j q
theorem D_rhs1 (j : S512x128.Idx) (q : D.contr.Idx) : (D.rhsIdx j q 1).val = (j 1).val := by
  unfold DotDims.rhsIdx
  rw [dif_neg (show ¬(1 : Fin S1000x128.rank) ∈ D.rhsBatch by decide), dif_pos (show (1 : Fin S1000x128.rank) ∈ D.rhsNonContracting by decide)]
  rfl

/-- The contraction into the zero accumulator, at (g, d): the sum over the thousand rows of L[r, g] · R[r, d]. -/
theorem contract_apply (L : FVec Ideal S1000x512 .bf16) (R : FVec Ideal S1000x128 .bf16) (g : Fin 512) (d : Fin 128) :
    FloatOps.matmul D none L R (constant S512x128 .f32 0x00000000#32) (ix2 g d) = ∑ r : Fin 1000, L (ix2 r g) * R (ix2 r d) := by
  rw [Ideal.matmul_constant_zero_apply, ← Equiv.sum_comp (contrEquiv1 D 1000 rfl rfl).symm]
  refine Finset.sum_congr rfl fun r _ => ?_
  have hr := contrEquiv1_symm_val D 1000 rfl rfl r
  have el : D.lhsIdx (ix2 g d) ((contrEquiv1 D 1000 rfl rfl).symm r) = ix2 r g := funext fun a => Fin.ext (by
    match a with
    | ⟨0, _⟩ => exact (D_lhs0 _ _).trans hr
    | ⟨1, _⟩ => exact D_lhs1 _ _)
  have er : D.rhsIdx (ix2 g d) ((contrEquiv1 D 1000 rfl rfl).symm r) = ix2 r d := funext fun a => Fin.ext (by
    match a with
    | ⟨0, _⟩ => exact (D_rhs0 _ _).trans hr
    | ⟨1, _⟩ => exact D_rhs1 _ _)
  rw [el, er]

/-- The comparison word of a graph id against a graph number, widened and read as a signed integer, is the one-hot entry. -/
theorem onehot_word (b : BitVec 32) (g : Fin 512) :
    (((((IntOp.cmpi .eq b (BitVec.ofNat 32 g.val)).setWidth 32).toInt : ℝ) : EReal)) = ind b g := by
  unfold ind
  by_cases h : b = BitVec.ofNat 32 g.val
  · rw [if_pos h, h]
    have e : (IntOp.cmpi .eq (BitVec.ofNat 32 g.val) (BitVec.ofNat 32 g.val)).setWidth 32 = 1#32 := by
      simp [IntOp.cmpi]
    rw [e]; norm_num
  · rw [if_neg h]
    have hb : (b == BitVec.ofNat 32 g.val) = false := beq_eq_false_iff_ne.mpr h
    have e : (IntOp.cmpi .eq b (BitVec.ofNat 32 g.val)).setWidth 32 = 0#32 := by
      simp [IntOp.cmpi, hb]
    rw [e]; norm_num

/-- The one-hot matrix at (r, g): the one-hot entry of node r's graph id against g. -/
theorem onehot_apply (ids : Vec Ideal S1000x1 .i32) (r : Fin 1000) (g : Fin 512) :
    k3_pay3 (F := Ideal) ids (ix2 r g) = ind (ids (ix2 r 0)) g := by
  unfold k3_pay3
  show (((((IntOp.cmpi .eq (broadcastTo S1000x512 (shapeCast S1000x1 ids shapeCasts_S1000x1_S1000x1) broadcasts_S1000x1_S1000x512 (ix2 r g))
      (iota .tc S1000x512 32 [1] iota_S1000x512_d1_w32 (ix2 r g))).setWidth 32).toInt : ℝ) : EReal)) = _
  rw [iota_single_apply, broadcastTo_apply _ _ (ix2 r g) (ix2 r (0 : Fin 1)) (fun a => by
    match a with
    | ⟨0, _⟩ => rfl
    | ⟨1, _⟩ => rfl), shapeCast_self]
  exact onehot_word _ g

end Payloads

section Payloads2

/-- The stored zero block reads zero everywhere. -/
theorem zero_sum_apply (j : S512x128.Idx) : k3_pay1 (F := Ideal) j = 0 := Ideal.ofBits_zero_f32
theorem zero_cnt_apply (j : S512x128.Idx) : k3_pay2 (F := Ideal) j = 0 := Ideal.ofBits_zero_f32

/-- The bf16 word of 1.0 is one. -/
theorem one_word : Ideal.ofBits .bf16 0x3F80#16 = 1 := IdealRules.sign_bit.ideal_onePat .bf16

/-- The accumulating payload at (g, d): the block's entry plus the thousand rows' one-hot-weighted entries. -/
theorem accum_apply (ids : Vec Ideal S1000x1 .i32) (x : Vec Ideal S1000x128 .f32) (acc : Vec Ideal S512x128 .f32)
    (g : Fin 512) (d : Fin 128) :
    k3_pay4 (F := Ideal) ids x acc (ix2 g d) = acc (ix2 g d) + ∑ r : Fin 1000, ind (ids (ix2 r 0)) g * x (ix2 r d) := by
  unfold k3_pay4
  show shapeCast S512x128 acc shapeCasts_S512x128_S512x128 (ix2 g d)
      + FloatOps.matmul D none (k3_pay3 (F := Ideal) ids) (truncf .bf16 (shapeCast S1000x128 x shapeCasts_S1000x128_S1000x128) bitsLt_bf16_f32)
          (constant S512x128 .f32 0x00000000#32) (ix2 g d) = _
  rw [shapeCast_self, contract_apply]
  refine congrArg (acc (ix2 g d) + ·) (Finset.sum_congr rfl fun r _ => ?_)
  rw [onehot_apply]
  show _ * shapeCast S1000x128 x shapeCasts_S1000x128_S1000x128 (ix2 r d) = _
  rw [shapeCast_self]

/-- The counting payload at (g, d): the block's entry plus the thousand one-hot entries, each times one. -/
theorem count_apply (ids : Vec Ideal S1000x1 .i32) (acc : Vec Ideal S512x128 .f32) (g : Fin 512) (d : Fin 128) :
    k3_pay5 (F := Ideal) ids acc (ix2 g d) = acc (ix2 g d) + ∑ r : Fin 1000, ind (ids (ix2 r 0)) g * 1 := by
  unfold k3_pay5
  show shapeCast S512x128 acc shapeCasts_S512x128_S512x128 (ix2 g d)
      + FloatOps.matmul D none (k3_pay3 (F := Ideal) ids) (broadcast S1000x128 (Scalar.ofBits (F := Ideal) .bf16 0x3F80#16))
          (constant S512x128 .f32 0x00000000#32) (ix2 g d) = _
  rw [shapeCast_self, contract_apply]
  refine congrArg (acc (ix2 g d) + ·) (Finset.sum_congr rfl fun r _ => ?_)
  rw [onehot_apply]
  exact congrArg (_ * ·) one_word

end Payloads2

/-! ## The blocks a point reads, and the run over the fifty points -/

section Run
variable (V : (c : Dev nD) → (b : Ref sig .tc) → Buf (Elt Ideal) ((c : Thread nD τ).loc b))

/-- Point `t`'s thousand node rows. -/
abbrev rowBlk (c : Dev nD) (t : Fin cfg3.N) : Vec Ideal S1000x128 .f32 := iblk3 V c 0 t
/-- Point `t`'s thousand graph ids. -/
abbrev idBlk (c : Dev nD) (t : Fin cfg3.N) : Vec Ideal S1000x1 .i32 := iblk3 V c 1 t

/-- Both input windows sit at block (t, 0) at point t. -/
theorem blockIdx : ∀ t : Fin cfg3.N, win3_0.index t 0 = t.val ∧ win3_0.index t 1 = 0 ∧ win3_1.index t 0 = t.val ∧ win3_1.index t 1 = 0 :=
  (by decide +kernel : ∀ t : Fin grid3.N, win3_0.index t 0 = t.val ∧ win3_0.index t 1 = 0 ∧ win3_1.index t 0 = t.val ∧ win3_1.index t 1 = 0)

/-- Row `r` of point `t`'s block is node `1000 t + r`'s row. -/
theorem rowBlk_apply (c : Dev nD) (t : Fin cfg3.N) (ht : t.val < 50) (r : Fin 1000) (d : Fin 128) :
    rowBlk V c t (ix2 r d) = V c main_v61 (ix2 (nodeOf ⟨t.val, ht⟩ r) d) := by
  unfold rowBlk iblk3
  rw [View.read_apply]
  show V c main_v61 _ = V c main_v61 _
  congr 1
  funext a
  apply Fin.ext
  match a with
  | ⟨0, _⟩ => show win3_0.index t 0 * 1000 + 1 * r.val = 1000 * t.val + r.val; rw [(blockIdx t).1]; omega
  | ⟨1, _⟩ => show win3_0.index t 1 * 128 + 1 * d.val = d.val; rw [(blockIdx t).2.1]; omega

/-- Entry `r` of point `t`'s id block is node `1000 t + r`'s graph id. -/
theorem idBlk_apply (c : Dev nD) (t : Fin cfg3.N) (ht : t.val < 50) (r : Fin 1000) :
    idBlk V c t (ix2 r (0 : Fin 1)) = V c main_v4 (ix2 (nodeOf ⟨t.val, ht⟩ r) (0 : Fin 1)) := by
  unfold idBlk iblk3
  rw [View.read_apply]
  show V c main_v4 _ = V c main_v4 _
  congr 1
  funext a
  apply Fin.ext
  match a with
  | ⟨0, _⟩ => show win3_1.index t 0 * 1000 + 1 * r.val = 1000 * t.val + r.val; rw [(blockIdx t).2.2.1]; omega
  | ⟨1, _⟩ => show win3_1.index t 1 * 1 + 1 * 0 = 0; rw [(blockIdx t).2.2.2]

/-- Block `t`'s share of graph `g`'s feature sum in column `d` (nothing beyond the fifty blocks). -/
def blockSum (c : Dev nD) (g : Fin 512) (d : Fin 128) (t : ℕ) : EReal :=
  if h : t < 50 then ∑ r : Fin 1000, ind (V c main_v4 (ix2 (nodeOf ⟨t, h⟩ r) (0 : Fin 1))) g * V c main_v61 (ix2 (nodeOf ⟨t, h⟩ r) d) else 0
/-- Block `t`'s share of graph `g`'s node count. -/
def blockCnt (c : Dev nD) (g : Fin 512) (t : ℕ) : EReal :=
  if h : t < 50 then ∑ r : Fin 1000, ind (V c main_v4 (ix2 (nodeOf ⟨t, h⟩ r) (0 : Fin 1))) g * 1 else 0

/-- The accumulating payload on point `t`'s blocks adds block `t`'s share. -/
theorem accum_point (c : Dev nD) (t : Fin cfg3.N) (acc : Vec Ideal S512x128 .f32) (g : Fin 512) (d : Fin 128) :
    k3_pay4 (F := Ideal) (idBlk V c t) (rowBlk V c t) acc (ix2 g d) = acc (ix2 g d) + blockSum V c g d t.val := by
  have ht : t.val < 50 := lt_of_lt_of_eq t.isLt (show cfg3.N = 50 from N_3)
  rw [accum_apply, blockSum, dif_pos ht]
  refine congrArg (acc (ix2 g d) + ·) (Finset.sum_congr rfl fun r _ => ?_)
  rw [idBlk_apply V c t ht r, rowBlk_apply V c t ht r d]

/-- The counting payload on point `t`'s id block adds block `t`'s share. -/
theorem count_point (c : Dev nD) (t : Fin cfg3.N) (acc : Vec Ideal S512x128 .f32) (g : Fin 512) (d : Fin 128) :
    k3_pay5 (F := Ideal) (idBlk V c t) acc (ix2 g d) = acc (ix2 g d) + blockCnt V c g t.val := by
  have ht : t.val < 50 := lt_of_lt_of_eq t.isLt (show cfg3.N = 50 from N_3)
  rw [count_apply, blockCnt, dif_pos ht]
  refine congrArg (acc (ix2 g d) + ·) (Finset.sum_congr rfl fun r _ => ?_)
  rw [idBlk_apply V c t ht r]

/-- At the first point the two blocks hold block 0's shares alone. -/
theorem point_first (c : Dev nD) (t : Fin cfg3.N) (h0 : t.val % 50 = 0) (g : Fin 512) (d : Fin 128) :
    (outsAt3 V c t.val t.isLt).1 (ix2 g d) = blockSum V c g d t.val
      ∧ (outsAt3 V c t.val t.isLt).2 (ix2 g d) = blockCnt V c g t.val := by
  rw [outsAt3_A V c t h0]
  dsimp only
  constructor
  · refine (congrFun (first_sum (F := Ideal) c (grid3.coords t) (ms3_0 t) (hs3_0 t) (ms3_1 t) (hs3_1 t) (ms3_2 t) (hs3_2 t) (ms3_3 t) (hs3_3 t)
      ((hcond3_0 t).mpr h0) (rowBlk V c t) (idBlk V c t)) (ix2 g d)).trans ?_
    rw [accum_point, zero_sum_apply, zero_add]
  · refine (congrFun (first_cnt (F := Ideal) c (grid3.coords t) (ms3_0 t) (hs3_0 t) (ms3_1 t) (hs3_1 t) (ms3_2 t) (hs3_2 t) (ms3_3 t) (hs3_3 t)
      ((hcond3_0 t).mpr h0) (rowBlk V c t) (idBlk V c t)) (ix2 g d)).trans ?_
    rw [count_point, zero_cnt_apply, zero_add]

/-- At a later point each block holds what the point before left plus block `t`'s share. -/
theorem point_later (c : Dev nD) (t : Fin cfg3.N) (h0 : ¬t.val % 50 = 0) (g : Fin 512) (d : Fin 128) :
    (outsAt3 V c t.val t.isLt).1 (ix2 g d)
        = (outsAt3 V c (t.val - 1) (Nat.lt_of_le_of_lt (Nat.sub_le _ _) t.isLt)).1 (ix2 g d) + blockSum V c g d t.val
      ∧ (outsAt3 V c t.val t.isLt).2 (ix2 g d)
        = (outsAt3 V c (t.val - 1) (Nat.lt_of_le_of_lt (Nat.sub_le _ _) t.isLt)).2 (ix2 g d) + blockCnt V c g t.val := by
  rw [outsAt3_B V c t h0]
  dsimp only
  constructor
  · refine (congrFun (later_sum (F := Ideal) c (grid3.coords t) (ms3_0 t) (hs3_0 t) (ms3_1 t) (hs3_1 t) (ms3_2 t) (hs3_2 t) (ms3_3 t) (hs3_3 t)
      (fun h => h0 ((hcond3_0 t).mp h)) (rowBlk V c t) (idBlk V c t)
      (outsAt3 V c (t.val - 1) (Nat.lt_of_le_of_lt (Nat.sub_le _ _) t.isLt)).1
      (outsAt3 V c (t.val - 1) (Nat.lt_of_le_of_lt (Nat.sub_le _ _) t.isLt)).2) (ix2 g d)).trans ?_
    exact accum_point V c t _ g d
  · refine (congrFun (later_cnt (F := Ideal) c (grid3.coords t) (ms3_0 t) (hs3_0 t) (ms3_1 t) (hs3_1 t) (ms3_2 t) (hs3_2 t) (ms3_3 t) (hs3_3 t)
      (fun h => h0 ((hcond3_0 t).mp h)) (rowBlk V c t) (idBlk V c t)
      (outsAt3 V c (t.val - 1) (Nat.lt_of_le_of_lt (Nat.sub_le _ _) t.isLt)).1
      (outsAt3 V c (t.val - 1) (Nat.lt_of_le_of_lt (Nat.sub_le _ _) t.isLt)).2) (ix2 g d)).trans ?_
    exact count_point V c t _ g d

/-- After point `n` the two blocks hold the shares of blocks 0 … n: by induction on the point. -/
theorem partial_sums (c : Dev nD) : ∀ (n : ℕ) (h : n < cfg3.N) (g : Fin 512) (d : Fin 128),
    (outsAt3 V c n h).1 (ix2 g d) = ∑ t ∈ Finset.range (n + 1), blockSum V c g d t
      ∧ (outsAt3 V c n h).2 (ix2 g d) = ∑ t ∈ Finset.range (n + 1), blockCnt V c g t
  | 0, h, g, d => by
    rw [Finset.sum_range_one, Finset.sum_range_one]
    exact point_first V c ⟨0, h⟩ rfl g d
  | n + 1, h, g, d => by
    have hN : cfg3.N = 50 := N_3
    have hB : ¬(⟨n + 1, h⟩ : Fin cfg3.N).val % 50 = 0 := by dsimp only; omega
    obtain ⟨e1, e2⟩ := point_later V c ⟨n + 1, h⟩ hB g d
    obtain ⟨i1, i2⟩ := partial_sums c n (Nat.lt_of_succ_lt h) g d
    rw [Finset.sum_range_succ _ (n + 1), Finset.sum_range_succ _ (n + 1), ← i1, ← i2]
    exact ⟨e1, e2⟩

end Run

/-! ## The result arrays after the region -/

section Final
variable (V : (c : Dev nD) → (b : Ref sig .tc) → Buf (Elt Ideal) ((c : Thread nD τ).loc b))

/-- The last point, the only one after which the resident blocks are written back. -/
abbrev lastPt : Fin cfg3.N := ⟨49, by rw [show cfg3.N = 50 from N_3]; decide⟩

/-- What the feature-sum block holds after the last point, as contents of its array (the one block is the array). -/
abbrev sumResult (c : Dev nD) : Buf (Elt Ideal) ((c : Thread nD τ).loc main_v62_0) := (outsAt3 V c 49 lastPt.isLt).1
/-- What the count block holds after the last point, as contents of its array. -/
abbrev cntResult (c : Dev nD) : Buf (Elt Ideal) ((c : Thread nD τ).loc main_v62_1) := (outsAt3 V c 49 lastPt.isLt).2

/-- The one write-back of the feature sums, at the last point: block (0, 0) read at zero offsets is the array. -/
theorem writeback_sum (c : Dev nD) (t : Fin cfg3.N) (hf : (cfg3.win 2).flush t = true) :
    (dat3 V c).flushed 2 t = ((cfg3.win 2).blk t).view.read (Elt Ideal) (sumResult V c) := by
  have hN : cfg3.N = 50 := N_3
  have h49 : t.val = 49 := by have := (flush3_2 t).mp hf; have := t.isLt; omega
  obtain rfl : t = lastPt := Fin.ext h49
  show (cfg3.win 2).cut (grid3.coords lastPt) ((dat3 V c).after 2 lastPt) = _
  rw [after3_2]
  have zeroOff' : (fun a => win3_2.index lastPt a * main_v62_0.ty.shape.size a) = fun _ => 0 := funext fun a => by fin_cases a <;> decide +kernel
  exact (Memref.read_access_unit_zero (Elt Ideal) main_v62_0 zeroOff' (fun a => by rw [congrFun zeroOff' a]; simp) (sumResult V c)).symm

/-- The one write-back of the counts, likewise. -/
theorem writeback_cnt (c : Dev nD) (t : Fin cfg3.N) (hf : (cfg3.win 3).flush t = true) :
    (dat3 V c).flushed 3 t = ((cfg3.win 3).blk t).view.read (Elt Ideal) (cntResult V c) := by
  have hN : cfg3.N = 50 := N_3
  have h49 : t.val = 49 := by have := (flush3_3 t).mp hf; have := t.isLt; omega
  obtain rfl : t = lastPt := Fin.ext h49
  show (cfg3.win 3).cut (grid3.coords lastPt) ((dat3 V c).after 3 lastPt) = _
  rw [after3_3]
  have zeroOff' : (fun a => win3_3.index lastPt a * main_v62_1.ty.shape.size a) = fun _ => 0 := funext fun a => by fin_cases a <;> decide +kernel
  exact (Memref.read_access_unit_zero (Elt Ideal) main_v62_1 zeroOff' (fun a => by rw [congrFun zeroOff' a]; simp) (cntResult V c)).symm

/-- The feature-sum array ends holding what the block held after the last point: that point's block covers it. -/
theorem arr_sum (c : Dev nD) : (dat3 V c).arrAt 2 cfg3.N = sumResult V c :=
  (dat3 V c).arrAt_eq_of_cover 2 (sumResult V c) (writeback_sum V c) fun i =>
    ⟨lastPt, (flush3_2 lastPt).mpr rfl, by
      show i ∈ ((View.whole main_v62_0).slice (win3_2.rect lastPt)).set
      rw [View.set_slice_whole, Rect.mem_set_unit]
      intro a
      have h0 : (i 0 : Nat) < 512 := (i 0).isLt
      have h1 : (i 1 : Nat) < 128 := (i 1).isLt
      match a with
      | ⟨0, _⟩ => show win3_2.index lastPt 0 * win3_2.size 0 ≤ (i 0 : Nat) ∧ (i 0 : Nat) < win3_2.index lastPt 0 * win3_2.size 0 + win3_2.xsize (grid3.coords lastPt) 0
                  rw [show win3_2.index lastPt 0 * win3_2.size 0 = 0 from by decide +kernel, show win3_2.xsize (grid3.coords lastPt) 0 = 512 from by decide +kernel]; omega
      | ⟨1, _⟩ => show win3_2.index lastPt 1 * win3_2.size 1 ≤ (i 1 : Nat) ∧ (i 1 : Nat) < win3_2.index lastPt 1 * win3_2.size 1 + win3_2.xsize (grid3.coords lastPt) 1
                  rw [show win3_2.index lastPt 1 * win3_2.size 1 = 0 from by decide +kernel, show win3_2.xsize (grid3.coords lastPt) 1 = 128 from by decide +kernel]; omega⟩

/-- The count array likewise. -/
theorem arr_cnt (c : Dev nD) : (dat3 V c).arrAt 3 cfg3.N = cntResult V c :=
  (dat3 V c).arrAt_eq_of_cover 3 (cntResult V c) (writeback_cnt V c) fun i =>
    ⟨lastPt, (flush3_3 lastPt).mpr rfl, by
      show i ∈ ((View.whole main_v62_1).slice (win3_3.rect lastPt)).set
      rw [View.set_slice_whole, Rect.mem_set_unit]
      intro a
      have h0 : (i 0 : Nat) < 512 := (i 0).isLt
      have h1 : (i 1 : Nat) < 128 := (i 1).isLt
      match a with
      | ⟨0, _⟩ => show win3_3.index lastPt 0 * win3_3.size 0 ≤ (i 0 : Nat) ∧ (i 0 : Nat) < win3_3.index lastPt 0 * win3_3.size 0 + win3_3.xsize (grid3.coords lastPt) 0
                  rw [show win3_3.index lastPt 0 * win3_3.size 0 = 0 from by decide +kernel, show win3_3.xsize (grid3.coords lastPt) 0 = 512 from by decide +kernel]; omega
      | ⟨1, _⟩ => show win3_3.index lastPt 1 * win3_3.size 1 ≤ (i 1 : Nat) ∧ (i 1 : Nat) < win3_3.index lastPt 1 * win3_3.size 1 + win3_3.xsize (grid3.coords lastPt) 1
                  rw [show win3_3.index lastPt 1 * win3_3.size 1 = 0 from by decide +kernel, show win3_3.xsize (grid3.coords lastPt) 1 = 128 from by decide +kernel]; omega⟩

/-- The feature-sum array after the pooling region. -/
theorem final_sum (c : Dev nD) :
    (dat3 (F := Ideal) V c).arrAt 2 cfg3.N
      = poolSumBlocks (V c main_v61) (fun i => V c main_v4 (ix2 (i 0) (0 : Fin 1))) := by
  have key : ∀ j : S512x128.Idx, (outsAt3 V c 49 lastPt.isLt).1 j
      = poolSumBlocks (V c main_v61) (fun i => V c main_v4 (ix2 (i 0) (0 : Fin 1))) j := fun j => by
    obtain ⟨g, d, rfl⟩ : ∃ (g : Fin 512) (d : Fin 128), j = ix2 g d := ⟨j 0, j 1, eq_ix2 j⟩
    rw [(partial_sums V c 49 lastPt.isLt g d).1, Finset.sum_range]
    unfold poolSumBlocks
    refine Finset.sum_congr rfl fun t _ => ?_
    rw [blockSum, dif_pos t.isLt]
  exact (arr_sum V c).trans (funext fun j => key j)

/-- The count array after the pooling region. -/
theorem final_cnt (c : Dev nD) :
    (dat3 (F := Ideal) V c).arrAt 3 cfg3.N
      = poolCntBlocks (fun i => V c main_v4 (ix2 (i 0) (0 : Fin 1))) := by
  have key : ∀ j : S512x128.Idx, (outsAt3 V c 49 lastPt.isLt).2 j
      = poolCntBlocks (fun i => V c main_v4 (ix2 (i 0) (0 : Fin 1))) j := fun j => by
    obtain ⟨g, d, rfl⟩ : ∃ (g : Fin 512) (d : Fin 128), j = ix2 g d := ⟨j 0, j 1, eq_ix2 j⟩
    rw [(partial_sums V c 49 lastPt.isLt g d).2, Finset.sum_range]
    unfold poolCntBlocks
    refine Finset.sum_congr rfl fun t _ => ?_
    rw [blockCnt, dif_pos t.isLt]
  exact (arr_cnt V c).trans (funext fun j => key j)

end Final

end Cert.Sage.PoolK

end
-- ==== Proof.PoolMath.lean ====
/-
  The block-by-block one-hot sums are the sums over the nodes of each graph: fifty blocks of a thousand nodes are
  the fifty thousand nodes, and a one-hot entry times a value is the value where the graph id matches and zero
  elsewhere (on the extended reals too: zero times anything is zero).
-/
import proofs.«421996_j17197049053739_2_alg».proof.Proof.Spec
import Mathlib.Algebra.BigOperators.Fin
import Mathlib.Logic.Equiv.Fin.Basic

noncomputable section

namespace Cert.Sage

open Idealize.ShloMosaic Idealize.ShloMosaic.ValueIdx

/-- A 32-bit word is the word of a graph number below 512 exactly when its signed value is that number: such a
    number is below 2³¹, so its word is read back unchanged, and the signed reading is injective. -/
theorem word_eq_iff_toInt_eq (b : BitVec 32) (g : Fin 512) :
    b = BitVec.ofNat 32 g.val ↔ b.toInt = (g.val : Int) := by
  have hg : (BitVec.ofNat 32 g.val).toInt = (g.val : Int) := by
    rw [BitVec.toInt_ofNat']
    have := g.isLt
    simp only [Int.bmod]
    omega
  constructor
  · rintro rfl
    exact hg
  · intro h
    exact BitVec.eq_of_toInt_eq (h.trans hg.symm)

/-- A one-hot entry times a value: the value where the graph id matches, zero elsewhere. -/
theorem ind_mul (b : BitVec 32) (g : Fin 512) (x : EReal) :
    ind b g * x = if b.toInt = (g.val : Int) then x else 0 := by
  unfold ind
  by_cases h : b.toInt = (g.val : Int)
  · rw [if_pos ((word_eq_iff_toInt_eq b g).2 h), if_pos h, one_mul]
  · rw [if_neg (fun hb => h ((word_eq_iff_toInt_eq b g).1 hb)), if_neg h, zero_mul]

/-- Every node is node `r` of block `t` for exactly one pair: quotient and remainder by a thousand. -/
def blockEquiv : Fin 50 × Fin 1000 ≃ Fin 50000 where
  toFun p := nodeOf p.1 p.2
  invFun n := (⟨n.val / 1000, by have := n.isLt; omega⟩, ⟨n.val % 1000, by omega⟩)
  left_inv p := by
    obtain ⟨t, r⟩ := p
    have := t.isLt
    have := r.isLt
    ext <;> simp only [nodeOf] <;> omega
  right_inv n := by
    ext
    simp only [nodeOf]
    omega

/-- A sum over the fifty blocks of the sums over each block's thousand nodes is the sum over all the nodes. -/
theorem sum_blocks {M : Type*} [AddCommMonoid M] (f : Fin 50000 → M) :
    ∑ t : Fin 50, ∑ r : Fin 1000, f (nodeOf t r) = ∑ n : Fin 50000, f n := by
  rw [← Fintype.sum_prod_type' (fun t r => f (nodeOf t r))]
  exact Fintype.sum_equiv blockEquiv _ _ (fun _ => rfl)

theorem poolSumBlocks_eq (H : SNodes.Idx → EReal) (B : SBatch.Idx → BitVec 32) :
    poolSumBlocks H B = poolSum H B := by
  funext i
  unfold poolSumBlocks poolSum
  refine (sum_blocks (fun n : Fin 50000 => ind (B (ix1 n)) (i 0) * H (ix2 n (i 1)))).trans ?_
  rw [Finset.sum_filter]
  exact Finset.sum_congr rfl (fun n _ => ind_mul _ _ _)

theorem poolCntBlocks_eq (B : SBatch.Idx → BitVec 32) :
    poolCntBlocks B = fun i => poolCnt B (ix1 (i 0)) := by
  funext i
  unfold poolCntBlocks poolCnt
  refine (sum_blocks (fun n : Fin 50000 => ind (B (ix1 n)) (i 0) * 1)).trans ?_
  rw [Finset.sum_filter]
  exact Finset.sum_congr rfl (fun n _ => ind_mul _ _ _)

end Cert.Sage

end
-- ==== Proof.HeadK.lean ====
/-
  The head's pallas_call: one grid point; the [512, 1] result block is, per graph, the sum over the features of
  (feature sum / max (1, count)) times the weight row, plus the bias.
-/
import proofs.«421996_j17197049053739_2_alg».proof.Proof.Gen.KernelIdeal.Frame
import proofs.«421996_j17197049053739_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.Sage.HeadK

open Cert.KernelIdeal Cert.KernelIdeal.Gen Cert.Sage Idealize.ShloMosaic.ValueIdx

/-! ## Layout steps of the body, read at an index -/

section Layout
variable {α : Type}

/-- A length-a vector viewed as an [a, 1] column reads, at (i, u), the vector at i. -/
theorem column_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] array spread over an [a, 1] column reads its one entry everywhere. -/
theorem spread_one_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

end Layout

/-- The index the lane sum inserts at row g, lane d, is (g, d). -/
theorem lift_row (g : Fin 512) (d : Fin 128) :
    reduces_S512x128_S512.lift (ix1 g) d = ix2 g d := by
  funext a
  match a with
  | ⟨0, _⟩ => exact Fin.ext rfl
  | ⟨1, _⟩ => exact Fin.ext rfl

/-- The word of 1.0 is the extended real one. -/
theorem one_word : (FloatOps.ofBits .f32 0x3F800000#32 : Ideal .f32) = 1 :=
  IdealRules.sign_bit.ideal_onePat .f32

/-- The body's value at (g, 0): the lane sum of (feature sum / max (1, count)) times the weight row, plus the bias. -/
theorem pay_apply (x0 x1 : Vec Ideal S512x128 .f32) (x2 : Vec Ideal S1x128 .f32) (x3 : Vec Ideal S1x1 .f32) (g : Fin 512) :
    k4_pay1 (F := Ideal) x0 x1 x2 x3 (ix2 g (0 : Fin 1))
      = (∑ d : Fin 128, Ideal.div (x0 (ix2 g d)) (max 1 (x1 (ix2 g d))) * x2 (ix2 (0 : Fin 1) d))
        + x3 (ix2 (0 : Fin 1) (0 : Fin 1)) := by
  unfold k4_pay1
  dsimp only
  simp only [shapeCast_self]
  rw [addf_apply, column_apply, spread_one_apply]
  refine congrArg (· + x3 (ix2 (0 : Fin 1) (0 : Fin 1))) ?_
  refine (Ideal.multiReduction_add_single _ 0x00000000#32 reduces_S512x128_S512 _ _ (ix1 g)).trans ?_
  show (∑ d : Fin 128, _) = _
  refine Finset.sum_congr rfl fun d _ => ?_
  rw [lift_row, mulf_apply, divf_apply, maximumf_apply, broadcast_apply, broadcastTo_1b_ab_apply, one_word]

/-- With every column of the count's row g at `N g` and the bias array's entry at `fb`'s, the body's block is the
    head of the feature sums, index by index. -/
theorem pay_eq_head (x0 x1 : Vec Ideal S512x128 .f32) (x2 : Vec Ideal S1x128 .f32) (x3 : Vec Ideal S1x1 .f32)
    (N : SCnt.Idx → EReal) (fb : SHeadB.Idx → EReal)
    (hN : ∀ i : S512x128.Idx, x1 i = N (ix1 (i 0))) (hfb : ∀ i : S1x1.Idx, x3 i = fb (ix1 (0 : Fin 1)))
    (j : S512x1.Idx) : k4_pay1 (F := Ideal) x0 x1 x2 x3 j = head x0 N x2 fb j := by
  obtain ⟨g, u, rfl⟩ : ∃ (g : Fin 512) (u : Fin 1), j = ix2 g u := ⟨j 0, j 1, eq_ix2 j⟩
  obtain rfl : u = 0 := Subsingleton.elim _ _
  rw [pay_apply, hfb]
  show _ = (∑ d : Fin 128, Ideal.div (x0 (ix2 g d)) (max 1 (N (ix1 g))) * x2 (ix2 (0 : Fin 1) d)) + fb (ix1 (0 : Fin 1))
  refine congrArg (· + fb (ix1 (0 : Fin 1))) (Finset.sum_congr rfl fun d _ => ?_)
  rw [hN]

variable (V : (c : Dev nD) → (b : Ref sig .tc) → Buf (Elt Ideal) ((c : Thread nD τ).loc b))

/-! ## The one point: every window's block is its whole array -/

theorem zeros2 : (![0, 0] : Fin 2 → Nat) = fun _ => 0 := funext fun a => by fin_cases a <;> rfl

/-- At the grid's one point every window sits at block (0, 0). -/
theorem index_zero (t : Fin cfg4.N) :
    (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0) := by
  obtain rfl := fin_N4 t
  decide

/-- The feature sums' block is the whole array. -/
theorem sums_block (c : Dev nD) (t : Fin cfg4.N) :
    (iblk4 (F := Ideal) V c 0 t : Vec Ideal S512x128 .f32) = V c main_v62_0 := by
  obtain ⟨⟨e0, e1⟩, -⟩ := index_zero t
  funext y
  unfold iblk4
  rw [View.read_apply]
  show V c main_v62_0 (((cfg4.win 0).blk t).view.emb y) = V c main_v62_0 y
  congr 1
  funext a; apply Fin.ext
  match a with
  | ⟨0, _⟩ => show win4_0.index t (0 : Fin 2) * 512 + 1 * (y 0).val = (y 0).val; rw [e0]; omega
  | ⟨1, _⟩ => show win4_0.index t (1 : Fin 2) * 128 + 1 * (y 1).val = (y 1).val; rw [e1]; omega

/-- The counts' block is the whole array. -/
theorem counts_block (c : Dev nD) (t : Fin cfg4.N) :
    (iblk4 (F := Ideal) V c 1 t : Vec Ideal S512x128 .f32) = V c main_v62_1 := by
  obtain ⟨-, ⟨e0, e1⟩, -⟩ := index_zero t
  funext y
  unfold iblk4
  rw [View.read_apply]
  show V c main_v62_1 (((cfg4.win 1).blk t).view.emb y) = V c main_v62_1 y
  congr 1
  funext a; apply Fin.ext
  match a with
  | ⟨0, _⟩ => show win4_1.index t (0 : Fin 2) * 512 + 1 * (y 0).val = (y 0).val; rw [e0]; omega
  | ⟨1, _⟩ => show win4_1.index t (1 : Fin 2) * 128 + 1 * (y 1).val = (y 1).val; rw [e1]; omega

/-- The weight row's block is the whole array. -/
theorem weights_block (c : Dev nD) (t : Fin cfg4.N) :
    (iblk4 (F := Ideal) V c 2 t : Vec Ideal S1x128 .f32) = V c main_arg12 := by
  obtain ⟨-, -, ⟨e0, e1⟩, -⟩ := index_zero t
  funext y
  unfold iblk4
  rw [View.read_apply]
  show V c main_arg12 (((cfg4.win 2).blk t).view.emb y) = V c main_arg12 y
  congr 1
  funext a; apply Fin.ext
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- The bias's block is the whole array. -/
theorem bias_block (c : Dev nD) (t : Fin cfg4.N) :
    (iblk4 (F := Ideal) V c 3 t : Vec Ideal S1x1 .f32) = V c main_v63 := by
  obtain ⟨-, -, -, ⟨e0, e1⟩, -⟩ := index_zero t
  funext y
  unfold iblk4
  rw [View.read_apply]
  show V c main_v63 (((cfg4.win 3).blk t).view.emb y) = V c main_v63 y
  congr 1
  funext a; apply Fin.ext
  match a with
  | ⟨0, _⟩ => show win4_3.index t (0 : Fin 2) * 1 + 1 * (y 0).val = (y 0).val; rw [e0]; omega
  | ⟨1, _⟩ => show win4_3.index t (1 : Fin 2) * 1 + 1 * (y 1).val = (y 1).val; rw [e1]; omega

/-- What the point writes back is the head of the arrays it finds, read through the result's one block. -/
theorem flushed_head (c : Dev nD) (N : SCnt.Idx → EReal) (fb : SHeadB.Idx → EReal)
    (hN : ∀ i : S512x128.Idx, V c main_v62_1 i = N (ix1 (i 0)))
    (hfb : ∀ i : S1x1.Idx, V c main_v63 i = fb (ix1 (0 : Fin 1))) (t : Fin cfg4.N) :
    (dat4 (F := Ideal) V c).flushed 4 t
      = ((cfg4.win 4).blk t).view.read (Elt Ideal) (head (V c main_v62_0) N (V c main_arg12) fb) := by
  show (cfg4.win 4).cut (grid4.coords t) ((dat4 (F := Ideal) V c).after 4 t) = _
  rw [after4_4]
  unfold out4_4
  rw [View.canon_unit_zero zeros2]
  simp only [View.ld_unit_zero (S := S512x128) zeros2, View.ld_unit_zero (S := S1x128) zeros2,
    View.ld_unit_zero (S := S1x1) zeros2]
  rw [sums_block, counts_block, weights_block, bias_block]
  obtain ⟨-, -, -, -, e0, e1⟩ := index_zero t
  funext j
  rw [View.read_apply]
  refine (pay_eq_head (V c main_v62_0) (V c main_v62_1) (V c main_arg12) (V c main_v63) N fb hN hfb _).trans ?_
  show head (V c main_v62_0) N (V c main_arg12) fb ((win4 4).xinj (grid4.coords t) j)
    = head (V c main_v62_0) N (V c main_arg12) fb (((View.whole main_v64).slice ((win4 4).rect t)).emb j)
  refine congrArg (head (V c main_v62_0) N (V c main_arg12) fb) (funext fun a => Fin.ext ?_)
  match a with
  | ⟨0, _⟩ => show (j 0).val = win4_4.index t (0 : Fin 2) * 512 + 1 * (j 0).val; rw [e0]; omega
  | ⟨1, _⟩ => show (j 1).val = win4_4.index t (1 : Fin 2) * 1 + 1 * (j 1).val; rw [e1]; omega

/-- The result array after the head's region, when the count array holds the count `N` of row g in every column
    and the [1, 1] bias array holds `fb`'s one entry. -/
theorem final (c : Dev nD) (N : SCnt.Idx → EReal) (fb : SHeadB.Idx → EReal)
    (hN : ∀ i : S512x128.Idx, V c main_v62_1 i = N (ix1 (i 0)))
    (hfb : ∀ i : S1x1.Idx, V c main_v63 i = fb (ix1 (0 : Fin 1))) :
    (dat4 (F := Ideal) V c).arrAt 4 cfg4.N = head (V c main_v62_0) N (V c main_arg12) fb := by
  refine (dat4 (F := Ideal) V c).arrAt_eq_of_cover 4 (head (V c main_v62_0) N (V c main_arg12) fb)
    (fun t _ => flushed_head V c N fb hN hfb t) fun i => ?_
  obtain ⟨-, -, -, -, e0, e1⟩ := index_zero t4_0
  refine ⟨t4_0, flush4_4 t4_0, ?_⟩
  show i ∈ ((View.whole main_v64).slice (win4_4.rect t4_0)).set
  rw [View.set_slice_whole, Rect.mem_set_unit]
  intro a
  have h0 : (i 0 : Nat) < 512 := (i 0).isLt
  have h1 : (i 1 : Nat) < 1 := (i 1).isLt
  match a with
  | ⟨0, _⟩ =>
    show win4_4.index t4_0 (0 : Fin 2) * 512 ≤ (i 0 : Nat) ∧ (i 0 : Nat) < win4_4.index t4_0 (0 : Fin 2) * 512 + 512
    rw [e0]; omega
  | ⟨1, _⟩ =>
    show win4_4.index t4_0 (1 : Fin 2) * 1 ≤ (i 1 : Nat) ∧ (i 1 : Nat) < win4_4.index t4_0 (1 : Fin 2) * 1 + 1
    rw [e1]; omega

end Cert.Sage.HeadK

end
-- ==== Proof.KernelValue.lean ====
/-
  The kernel's program ends with its result array at the network's function of its arguments: region by region,
  each pallas_call's result array is its stage of the specification applied to the arrays the region was entered
  with, and the host stretches between them carry those arrays (module `Boundary`).
-/
import proofs.«421996_j17197049053739_2_alg».proof.Proof.Boundary
import proofs.«421996_j17197049053739_2_alg».proof.Proof.KernelRun
import proofs.«421996_j17197049053739_2_alg».proof.Proof.Layers
import proofs.«421996_j17197049053739_2_alg».proof.Proof.PoolK
import proofs.«421996_j17197049053739_2_alg».proof.Proof.PoolMath
import proofs.«421996_j17197049053739_2_alg».proof.Proof.HeadK
import Idealize.ShloMosaic.Lib.Pipeline.Value

set_option maxRecDepth 16384

noncomputable section

open Idealize.ShloMosaic Idealize.ShloMosaic.TcCoe Idealize.SL.Sem

namespace Cert.Sage.KernelValue

open Cert.KernelIdeal Cert.KernelIdeal.Gen Cert.Sage Cert.Sage.Boundary Idealize.ShloMosaic.ValueIdx

variable (m : (ℓ : Loc nD τ sig) → Buf (Elt Ideal) ℓ) (ρ : Dev nD → PrngReg)

/-- The first layer's features, as the first region leaves them. -/
theorem layer1_eq (c : Dev nD) :
    W4 m ρ c (Proc.devRef .tc main_v23)
      = layer (agg (F := Ideal) (m ((c : Thread nD τ).loc main_arg0)) (srcOf (m ((c : Thread nD τ).loc main_arg1))) (dstOf (m ((c : Thread nD τ).loc main_arg1)))) (m ((c : Thread nD τ).loc main_arg0)) (m ((c : Thread nD τ).loc main_arg3)) (m ((c : Thread nD τ).loc main_arg4)) (m ((c : Thread nD τ).loc main_arg5)) :=
  (W4_arr m ρ c 5).trans ((Layer0.final (V3 m ρ) c).trans (by
    rw [V3_v22 m ρ c, V3_arg0 m ρ c, V3_arg3 m ρ c, V3_arg4 m ρ c, V3_arg5 m ρ c]))

/-- The second layer's features, from the first's. -/
theorem layer2_eq (c : Dev nD) :
    W8 m ρ c (Proc.devRef .tc main_v42)
      = layer (agg (F := Ideal) (W4 m ρ c (Proc.devRef .tc main_v23)) (srcOf (m ((c : Thread nD τ).loc main_arg1))) (dstOf (m ((c : Thread nD τ).loc main_arg1))))
          (W4 m ρ c (Proc.devRef .tc main_v23)) (m ((c : Thread nD τ).loc main_arg6)) (m ((c : Thread nD τ).loc main_arg7)) (m ((c : Thread nD τ).loc main_arg8)) :=
  (W8_arr m ρ c 5).trans ((Layer1.final (V7 m ρ) c).trans (by
    rw [V7_v41 m ρ c, V7_v23 m ρ c, V7_arg6 m ρ c, V7_arg7 m ρ c, V7_arg8 m ρ c]))

/-- The third layer's features, from the second's. -/
theorem layer3_eq (c : Dev nD) :
    W12 m ρ c (Proc.devRef .tc main_v61)
      = layer (agg (F := Ideal) (W8 m ρ c (Proc.devRef .tc main_v42)) (srcOf (m ((c : Thread nD τ).loc main_arg1))) (dstOf (m ((c : Thread nD τ).loc main_arg1))))
          (W8 m ρ c (Proc.devRef .tc main_v42)) (m ((c : Thread nD τ).loc main_arg9)) (m ((c : Thread nD τ).loc main_arg10)) (m ((c : Thread nD τ).loc main_arg11)) :=
  (W12_arr m ρ c 5).trans ((Layer2.final (V11 m ρ) c).trans (by
    rw [V11_v60 m ρ c, V11_v42 m ρ c, V11_arg9 m ρ c, V11_arg10 m ρ c, V11_arg11 m ρ c]))

/-- The last hidden layer is the specification's. -/
theorem hidden_eq (c : Dev nD) :
    W12 m ρ c (Proc.devRef .tc main_v61)
      = hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [layer3_eq, layer2_eq, layer1_eq]
  rfl

/-- The graph ids, read off the column the pooling region stages, are the argument. -/
theorem batch_eq (c : Dev nD) :
    (fun i : SBatch.Idx => V12 m ρ c main_v4 (ix2 (i 0) (0 : Fin 1))) = (m ((c : Thread nD τ).loc main_arg2)) := by
  funext i
  rw [V12_v4 m ρ c]
  refine (shapeCast_apply _ _ _ i ?_).trans rfl
  rw [Shape.rowMajor_val_one, Shape.rowMajor_val_two]
  show (i 0).val = (i 0).val * 1 + 0
  omega

/-- The pooled feature sums after the pooling region. -/
theorem poolSum_eq (c : Dev nD) :
    W13 m ρ c (Proc.devRef .tc main_v62_0)
      = poolSum (W12 m ρ c (Proc.devRef .tc main_v61)) (m ((c : Thread nD τ).loc main_arg2)) :=
  (W13_arr m ρ c 2).trans ((PoolK.final_sum (V12 m ρ) c).trans (by
    rw [batch_eq m ρ c, poolSumBlocks_eq]))

/-- The pooled counts after the pooling region: every column of row g holds graph g's count. -/
theorem poolCnt_eq (c : Dev nD) (i : S512x128.Idx) :
    W13 m ρ c (Proc.devRef .tc main_v62_1) i = poolCnt (m ((c : Thread nD τ).loc main_arg2)) (ix1 (i 0)) := by
  have h := (W13_arr m ρ c 3).trans ((PoolK.final_cnt (V12 m ρ) c).trans (by
    rw [batch_eq m ρ c, poolCntBlocks_eq]))
  exact congrFun h i

/-- The head's bias, read off the [1, 1] array the last host stretch makes of it. -/
theorem bias_eq (c : Dev nD) (i : S1x1.Idx) : V14 m ρ c main_v63 i = (m ((c : Thread nD τ).loc main_arg13)) (ix1 (0 : Fin 1)) := by
  rw [V14_v63 m ρ c]
  refine (shapeCast_apply _ _ i (ix1 (0 : Fin 1)) ?_).trans rfl
  rw [Shape.rowMajor_val_one, Shape.rowMajor_val_two]
  have l0 : (i 0).val < 1 := (i 0).isLt
  have l1 : (i 1).val < 1 := (i 1).isLt
  show 0 = (i 0).val * 1 + (i 1).val
  omega

/-- THE RESULT: the last boundary's contents of the result array are the network of the arguments. -/
theorem result_eq (c : Dev nD) :
    W15 m ρ c (Proc.devRef .tc main_v64)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W15_arr m ρ c 4).trans ?_
  refine (HeadK.final (V14 m ρ) c (poolCnt (m ((c : Thread nD τ).loc main_arg2))) (m ((c : Thread nD τ).loc main_arg13)) (fun i => ?_) (bias_eq m ρ c)).trans ?_
  · rw [V14_v62_1 m ρ c]; exact poolCnt_eq m ρ c i
  · rw [V14_v62_0 m ρ c, V14_arg12 m ρ c, poolSum_eq m ρ c, hidden_eq m ρ c]
    rfl

/-- The kernel's run, read: the result array at the network of the arguments, the arguments unchanged. -/
theorem run : θ_run defs (onTc (τ := τ) (main (F := Ideal))) ⟨m, fun _ => 0, ρ⟩ (fun r => ∀ c : Dev nD,
      r.2.mem ((c.tc : Thread nD τ).loc main_v64) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1).trans (result_eq m ρ c), (h c).2⟩) (Cert.KernelIdeal.Run.run_result m ρ)

end Cert.Sage.KernelValue

end
-- ==== Proof.RefLayers.lean ====
/-
  The reference's host operations of one SAGE layer, as whole-array terms: the aggregation chain is the very
  function `Cert.Sage.agg` the kernel's program runs, and `relu (A · Wlᵀ + b + X · Wrᵀ)`, with the transposes and
  the two-step broadcast of the bias read at an index, is `Cert.Sage.layer`.
-/
import proofs.«421996_j17197049053739_2_alg».proof.Proof.Gen.ReferenceIdeal
import proofs.«421996_j17197049053739_2_alg».proof.Proof.Gen.KernelIdeal
import proofs.«421996_j17197049053739_2_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic

namespace Cert.Sage.Ref

open Cert.ReferenceIdeal Cert.ReferenceIdeal.Gen Cert.Sage Idealize.ShloMosaic.ValueIdx

/-- The reference's aggregation chain (its scatter-adds, gather, clip and quotient) is `agg`. -/
theorem refAgg_eq (X : FVec Ideal S50000x128 .f32) (e : IVec S2x1600000 32) :
    Host.divf
      (Host.scatterAdd scatter_S50000x128_S1600000x1_S1600000x128_1_0_0_1
        (broadcastInDim S50000x128 ![] bcast_S_S50000x128 (constant (F := Ideal) S_ .f32 0x00000000#32))
        (broadcastInDim S1600000x1 ![0] bcast_S1600000_S1600000x1_0
          (shapeCast _ (extractStridedSlice S1x1600000 ![1, 0] e slices_S2x1600000_S1x1600000_1_0) shapeCasts_S1x1600000_S1600000))
        (Host.gather gather_S50000x128_S1600000x1_S1600000x128_1_0_n_n_0_1_1128 X
          (broadcastInDim S1600000x1 ![0] bcast_S1600000_S1600000x1_0
            (select (cmpi .slt (shapeCast _ (extractStridedSlice S1x1600000 ![0, 0] e slices_S2x1600000_S1x1600000_0_0) shapeCasts_S1x1600000_S1600000)
                (broadcastInDim S1600000 ![] bcast_S_S1600000 (constantI S_ 32 0#32)))
              (addi (shapeCast _ (extractStridedSlice S1x1600000 ![0, 0] e slices_S2x1600000_S1x1600000_0_0) shapeCasts_S1x1600000_S1600000)
                (broadcastInDim S1600000 ![] bcast_S_S1600000 (constantI S_ 32 50000#32)))
              (shapeCast _ (extractStridedSlice S1x1600000 ![0, 0] e slices_S2x1600000_S1x1600000_0_0) shapeCasts_S1x1600000_S1600000)))))
      (broadcastInDim S50000x128 ![0, 1] bcast_S50000x1_S50000x128_0_1
        (broadcastInDim S50000x1 ![0] bcast_S50000_S50000x1_0
          (maximumf (broadcastInDim S50000 ![] bcast_S_S50000 (id (constant (F := Ideal) S_ .f32 0x3F800000#32)))
            (Host.scatterAdd scatter_S50000_S1600000x1_S1600000_n_0_0_1
              (broadcastInDim S50000 ![] bcast_S_S50000 (constant (F := Ideal) S_ .f32 0x00000000#32))
              (broadcastInDim S1600000x1 ![0] bcast_S1600000_S1600000x1_0
                (shapeCast _ (extractStridedSlice S1x1600000 ![1, 0] e slices_S2x1600000_S1x1600000_1_0) shapeCasts_S1x1600000_S1600000))
              (broadcastInDim S1600000 ![] bcast_S_S1600000 (constant (F := Ideal) S_ .f32 0x3F800000#32))))))
      = agg X (srcOf e) (dstOf e) := by
  unfold agg srcOf dstOf
  rfl

/-! ## One layer's dense part, read at an index -/

/-- The product's left operand is read at the result's row and the contraction coordinate. -/
theorem dotLhs_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem dotLhs_col (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- The right operand is read at the contraction coordinate and the result's column. -/
theorem dotRhs_row (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem dotRhs_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- `Y · Wᵀ` at `(r, j)`: the transposed weight, contracted on its first axis, is the weight contracted on its second:
    `∑ₖ Y[r,k] · W[j,k]`. -/
theorem dotTransposed_apply (Y : FVec Ideal S50000x128 .f32) (W : FVec Ideal S128x128 .f32) (i : S50000x128.Idx) :
    Host.dotGeneral dot_S50000x128_S128x128_S50000x128_1_0_0_1_n_n none Y
        (transpose S128x128 [1, 0] W transposes_S128x128_S128x128_1_0) i
      = ∑ k : Fin 128, Y (ix2 (i 0) k) * W (ix2 (i 1) k) := by
  generalize hT : transpose S128x128 [1, 0] W transposes_S128x128_S128x128_1_0 = T
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i
      ((contrEquiv1 dot_S50000x128_S128x128_S50000x128_1_0_0_1_n_n 128 rfl rfl).symm k) = ix2 (i 0) k :=
    funext fun a => Fin.ext (by
      match a with
      | ⟨0, _⟩ => exact dotLhs_row _ _
      | ⟨1, _⟩ => exact (dotLhs_col _ _).trans hk)
  have er : dot_S50000x128_S128x128_S50000x128_1_0_0_1_n_n.rhsIdx i
      ((contrEquiv1 dot_S50000x128_S128x128_S50000x128_1_0_0_1_n_n 128 rfl rfl).symm k) = ix2 k (i 1) :=
    funext fun a => Fin.ext (by
      match a with
      | ⟨0, _⟩ => exact (dotRhs_row _ _).trans hk
      | ⟨1, _⟩ => exact dotRhs_col _ _)
  rw [el, er, ← hT]
  exact congrArg (Y (ix2 (i 0) k) * ·) (transpose_ix2_apply W transposes_S128x128_S128x128_1_0 k (i 1))

/-- The bias, made a row and then repeated down the nodes, is at `(r, j)` its entry `j`. -/
theorem biasRows_apply (b : FVec Ideal S128 .f32) (i : S50000x128.Idx) :
    broadcastInDim S50000x128 ![0, 1] bcast_S1x128_S50000x128_0_1 (broadcastInDim S1x128 ![1] bcast_S128_S1x128_1 b) i
      = b (ix1 (i 1)) := by
  rw [broadcastInDim_apply _ bcast_S1x128_S50000x128_0_1 _ i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b _ (ix1 (i 1)) (fun a => match a with
    | ⟨0, _⟩ => by show (i 1).val = if (128 : Nat) = 1 then 0 else (i 1).val; rw [if_neg (by decide)])

/-- The constant zero, repeated over every node and feature. -/
theorem zeros_apply (i : S50000x128.Idx) :
    broadcastInDim S50000x128 ![] bcast_S_S50000x128 (constant (F := Ideal) S_ .f32 0x00000000#32) i = 0 := by
  rw [broadcastInDim_apply _ bcast_S_S50000x128 _ i ix0 (fun a => a.elim0), constant_apply, Ideal.ofBits_zero_f32]

/-- The reference's dense part of a layer is `layer`. -/
theorem refLayer_eq (A X : FVec Ideal S50000x128 .f32) (Wl : FVec Ideal S128x128 .f32) (b : FVec Ideal S128 .f32)
    (Wr : FVec Ideal S128x128 .f32) :
    maximumf
      (addf
        (addf
          (Host.dotGeneral dot_S50000x128_S128x128_S50000x128_1_0_0_1_n_n none A
            (transpose S128x128 [1, 0] Wl transposes_S128x128_S128x128_1_0))
          (broadcastInDim S50000x128 ![0, 1] bcast_S1x128_S50000x128_0_1 (broadcastInDim S1x128 ![1] bcast_S128_S1x128_1 b)))
        (Host.dotGeneral dot_S50000x128_S128x128_S50000x128_1_0_0_1_n_n none X
          (transpose S128x128 [1, 0] Wr transposes_S128x128_S128x128_1_0)))
      (broadcastInDim S50000x128 ![] bcast_S_S50000x128 (constant (F := Ideal) S_ .f32 0x00000000#32))
      = layer A X Wl b Wr := by
  funext i
  rw [maximumf_apply, addf_apply, addf_apply, dotTransposed_apply, dotTransposed_apply, biasRows_apply, zeros_apply]
  rfl

end Cert.Sage.Ref

end
-- ==== Proof.RefTail.lean ====
/-
  The reference's pooling and head as whole-array terms of the last hidden layer `h`: the two scatter-adds at the
  graph ids are the per-graph feature sums and counts (an update lands on row g exactly when the node's graph id,
  read signed, is g; ids outside [0, 512) land nowhere), and the quotient, the product with the transposed weight
  row and the bias are `Cert.Sage.head`.
-/
import proofs.«421996_j17197049053739_2_alg».proof.Proof.Gen.ReferenceIdeal
import proofs.«421996_j17197049053739_2_alg».proof.Proof.Gen.KernelIdeal
import proofs.«421996_j17197049053739_2_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic

namespace Cert.Sage.Ref

open Cert.ReferenceIdeal Cert.ReferenceIdeal.Gen Cert.Sage Idealize.ShloMosaic.ValueIdx

/-- The feature scatter's start on the row axis: the node's graph id read signed. -/
theorem featStart_zero (j : S50000x128.Idx) (idx : IVec S50000x1 32) :
    scatter_S512x128_S50000x1_S50000x128_1_0_0_1.start j idx 0 = (idx (ix2 (j 0) 0)).toInt := by
  unfold ScatterDims.start
  rw [dif_pos (show (0 : Fin S512x128.rank) ∈ scatter_S512x128_S50000x1_S50000x128_1_0_0_1.scatterDimsToOperandDims from List.mem_singleton.mpr rfl)]
  congr 2
  funext b; refine Fin.ext ?_
  match b with
  | ⟨0, _⟩ => rfl
  | ⟨1, _⟩ => rfl

/-- On the feature axis the index vector names nothing: the start is zero. -/
theorem featStart_one (j : S50000x128.Idx) (idx : IVec S50000x1 32) :
    scatter_S512x128_S50000x1_S50000x128_1_0_0_1.start j idx 1 = 0 := by
  unfold ScatterDims.start
  rw [dif_neg (show ¬ (1 : Fin S512x128.rank) ∈ scatter_S512x128_S50000x1_S50000x128_1_0_0_1.scatterDimsToOperandDims by decide)]

/-- The row axis is inserted: the window coordinate there is zero. -/
theorem featWindow_zero (j : S50000x128.Idx) :
    scatter_S512x128_S50000x1_S50000x128_1_0_0_1.window j 0 = 0 := by
  unfold ScatterDims.window
  rw [dif_neg (show ¬ (0 : Fin S512x128.rank) ∈ scatter_S512x128_S50000x1_S50000x128_1_0_0_1.sKept by decide)]

/-- On the feature axis the window coordinate is the update's own column. -/
theorem featWindow_one (j : S50000x128.Idx) :
    scatter_S512x128_S50000x1_S50000x128_1_0_0_1.window j 1 = (j 1).val := by
  unfold ScatterDims.window
  rw [dif_pos (show (1 : Fin S512x128.rank) ∈ scatter_S512x128_S50000x1_S50000x128_1_0_0_1.sKept by decide)]
  rfl

/-- Where an update of the feature scatter lands: on the row of the node's graph id read signed, at the update's own
    column; ids outside the rows land nowhere. -/
theorem featResult_eq_some_iff (j : S50000x128.Idx) (idx : IVec S50000x1 32) (i : S512x128.Idx) :
    scatter_S512x128_S50000x1_S50000x128_1_0_0_1.resultIdx? j idx = some i ↔
      (idx (ix2 (j 0) 0)).toInt = ((i 0).val : Int) ∧ (j 1).val = (i 1).val := by
  have hi0 : (i 0).val < 512 := (i 0).isLt
  have hi1 : (i 1).val < 128 := (i 1).isLt
  have hj1 : (j 1).val < 128 := (j 1).isLt
  unfold ScatterDims.resultIdx?
  split
  · rename_i h
    rw [Option.some.injEq]
    constructor
    · intro e
      have e0 := congrArg (fun f => (f 0).val) e
      have e1 := congrArg (fun f => (f 1).val) e
      have h0 := h 0
      simp only [featStart_zero, featStart_one, featWindow_zero, featWindow_one] at e0 e1 h0
      constructor <;> omega
    · rintro ⟨e0, e1⟩
      funext a; refine Fin.ext ?_
      match a with
      | ⟨0, _⟩ =>
        show (scatter_S512x128_S50000x1_S50000x128_1_0_0_1.start j idx 0 + (scatter_S512x128_S50000x1_S50000x128_1_0_0_1.window j 0 : Nat)).toNat = (i 0).val
        rw [featStart_zero, featWindow_zero]; omega
      | ⟨1, _⟩ =>
        show (scatter_S512x128_S50000x1_S50000x128_1_0_0_1.start j idx 1 + (scatter_S512x128_S50000x1_S50000x128_1_0_0_1.window j 1 : Nat)).toNat = (i 1).val
        rw [featStart_one, featWindow_one]; omega
  · rename_i h
    constructor
    · intro e; exact absurd e (by simp)
    · rintro ⟨e0, e1⟩
      exfalso; apply h
      intro a
      match a with
      | ⟨0, _⟩ =>
        show 0 ≤ scatter_S512x128_S50000x1_S50000x128_1_0_0_1.start j idx 0 + (scatter_S512x128_S50000x1_S50000x128_1_0_0_1.window j 0 : Nat) ∧ scatter_S512x128_S50000x1_S50000x128_1_0_0_1.start j idx 0 + (scatter_S512x128_S50000x1_S50000x128_1_0_0_1.window j 0 : Nat) < (512 : Nat)
        rw [featStart_zero, featWindow_zero]; omega
      | ⟨1, _⟩ =>
        show 0 ≤ scatter_S512x128_S50000x1_S50000x128_1_0_0_1.start j idx 1 + (scatter_S512x128_S50000x1_S50000x128_1_0_0_1.window j 1 : Nat) ∧ scatter_S512x128_S50000x1_S50000x128_1_0_0_1.start j idx 1 + (scatter_S512x128_S50000x1_S50000x128_1_0_0_1.window j 1 : Nat) < (128 : Nat)
        rw [featStart_one, featWindow_one]; omega

/-- The index array of both scatters, one graph id per node in a column, reads the node's id. -/
theorem idsColumn_apply (B : IVec S50000 32) (n : Fin 50000) :
    broadcastInDim S50000x1 ![0] bcast_S50000_S50000x1_0 B (ix2 n 0) = B (ix1 n) :=
  broadcastInDim_apply _ bcast_S50000_S50000x1_0 B (ix2 n 0) (ix1 n) (fun a => match a with
    | ⟨0, _⟩ => by show n.val = if (50000 : Nat) = 1 then 0 else n.val; rw [if_neg (by decide)])

/-- The feature scatter's sum at (g, d): over the nodes whose graph id, read signed, is g, of the update's entry (n, d). -/
theorem featScatter_sum (B : IVec S50000 32) (upd : S50000x128.Idx → EReal) (i : S512x128.Idx) :
    ∑ j ∈ Finset.univ.filter (fun j => scatter_S512x128_S50000x1_S50000x128_1_0_0_1.resultIdx? j
        (broadcastInDim S50000x1 ![0] bcast_S50000_S50000x1_0 B) = some i), upd j
      = ∑ n ∈ Finset.univ.filter (fun n : Fin 50000 => (B (ix1 n)).toInt = ((i 0 : Fin 512).val : Int)), upd (ix2 n (i 1)) := by
  rw [Finset.filter_congr (fun j _ => featResult_eq_some_iff j _ i), Finset.sum_filter, sum_idx2, Finset.sum_filter]
  refine Finset.sum_congr rfl fun n _ => ?_
  rw [Finset.sum_eq_single (⟨(i 1).val, (i 1).isLt⟩ : Fin 128)]
  · refine if_congr ?_ rfl rfl
    constructor
    · rintro ⟨h, _⟩; rw [← idsColumn_apply B n]; exact h
    · intro h; rw [← idsColumn_apply B n] at h; exact ⟨h, rfl⟩
  · intro b _ hb
    rw [if_neg]
    rintro ⟨_, h⟩
    exact hb (Fin.ext h)
  · intro h; exact absurd (Finset.mem_univ _) h

/-- The count scatter's start on its one axis: the node's graph id read signed. -/
theorem cntStart_zero (j : S50000.Idx) (idx : IVec S50000x1 32) :
    scatter_S512_S50000x1_S50000_n_0_0_1.start j idx 0 = (idx (ix2 (j 0) 0)).toInt := by
  unfold ScatterDims.start
  rw [dif_pos (show (0 : Fin S512.rank) ∈ scatter_S512_S50000x1_S50000_n_0_0_1.scatterDimsToOperandDims from List.mem_singleton.mpr rfl)]
  congr 2
  funext b; refine Fin.ext ?_
  match b with
  | ⟨0, _⟩ => rfl
  | ⟨1, _⟩ => rfl

/-- It has no window: the one operand axis is inserted. -/
theorem cntWindow_zero (j : S50000.Idx) :
    scatter_S512_S50000x1_S50000_n_0_0_1.window j 0 = 0 := by
  unfold ScatterDims.window
  rw [dif_neg (show ¬ (0 : Fin S512.rank) ∈ scatter_S512_S50000x1_S50000_n_0_0_1.sKept by decide)]

/-- Where an update of the count scatter lands: on the entry of the node's graph id read signed. -/
theorem cntResult_eq_some_iff (j : S50000.Idx) (idx : IVec S50000x1 32) (i : S512.Idx) :
    scatter_S512_S50000x1_S50000_n_0_0_1.resultIdx? j idx = some i ↔
      (idx (ix2 (j 0) 0)).toInt = ((i 0).val : Int) := by
  have hi0 : (i 0).val < 512 := (i 0).isLt
  unfold ScatterDims.resultIdx?
  split
  · rename_i h
    rw [Option.some.injEq]
    constructor
    · intro e
      have e0 := congrArg (fun f => (f 0).val) e
      have h0 := h 0
      simp only [cntStart_zero, cntWindow_zero] at e0 h0
      omega
    · intro e0
      funext a; refine Fin.ext ?_
      match a with
      | ⟨0, _⟩ =>
        show (scatter_S512_S50000x1_S50000_n_0_0_1.start j idx 0 + (scatter_S512_S50000x1_S50000_n_0_0_1.window j 0 : Nat)).toNat = (i 0).val
        rw [cntStart_zero, cntWindow_zero]; omega
  · rename_i h
    constructor
    · intro e; exact absurd e (by simp)
    · intro e0
      exfalso; apply h
      intro a
      match a with
      | ⟨0, _⟩ =>
        show 0 ≤ scatter_S512_S50000x1_S50000_n_0_0_1.start j idx 0 + (scatter_S512_S50000x1_S50000_n_0_0_1.window j 0 : Nat) ∧ scatter_S512_S50000x1_S50000_n_0_0_1.start j idx 0 + (scatter_S512_S50000x1_S50000_n_0_0_1.window j 0 : Nat) < (512 : Nat)
        rw [cntStart_zero, cntWindow_zero]; omega

/-- The count scatter's sum at g: over the nodes whose graph id, read signed, is g, of the update's entry n. -/
theorem cntScatter_sum (B : IVec S50000 32) (upd : S50000.Idx → EReal) (i : S512.Idx) :
    ∑ j ∈ Finset.univ.filter (fun j => scatter_S512_S50000x1_S50000_n_0_0_1.resultIdx? j
        (broadcastInDim S50000x1 ![0] bcast_S50000_S50000x1_0 B) = some i), upd j
      = ∑ n ∈ Finset.univ.filter (fun n : Fin 50000 => (B (ix1 n)).toInt = ((i 0 : Fin 512).val : Int)), upd (ix1 n) := by
  rw [Finset.filter_congr (fun j _ => cntResult_eq_some_iff j _ i), Finset.sum_filter, Finset.sum_filter]
  refine Fintype.sum_equiv ⟨fun j => j 0, ix1, fun j => (eq_ix1 j).symm, fun _ => rfl⟩ _ _ (fun j => ?_)
  show _ = if (B (ix1 (j 0))).toInt = ((i 0 : Fin 512).val : Int) then upd (ix1 (j 0)) else 0
  rw [show upd j = upd (ix1 (j 0)) from congrArg upd (eq_ix1 j)]
  refine if_congr ?_ rfl rfl
  rw [idsColumn_apply B (j 0)]

/-- The bit pattern of 1.0 is the extended real one. -/
theorem one_f32 : Ideal.ofBits .f32 0x3F800000#32 = 1 := IdealRules.sign_bit.ideal_onePat .f32

/-- The feature scatter into zeros is the per-graph feature sum. -/
theorem featScatter_eq (h : FVec Ideal S50000x128 .f32) (B : IVec S50000 32) :
    Host.scatterAdd scatter_S512x128_S50000x1_S50000x128_1_0_0_1
        (broadcastInDim S512x128 ![] bcast_S_S512x128 (constant (F := Ideal) S_ .f32 0x00000000#32))
        (broadcastInDim S50000x1 ![0] bcast_S50000_S50000x1_0 B) h = poolSum h B := by
  funext i
  unfold Host.scatterAdd
  rw [Ideal.hostScatterAdd_def]
  unfold Ideal.hostScatterAdd
  rw [featScatter_sum B h i,
    broadcastInDim_apply _ bcast_S_S512x128 (constant (F := Ideal) S_ .f32 0x00000000#32) i ix0 (fun a => a.elim0),
    constant_apply, Ideal.ofBits_zero_f32, zero_add]
  rfl

/-- The count scatter of ones into zeros is the per-graph node count. -/
theorem cntScatter_eq (B : IVec S50000 32) :
    Host.scatterAdd scatter_S512_S50000x1_S50000_n_0_0_1
        (broadcastInDim S512 ![] bcast_S_S512 (constant (F := Ideal) S_ .f32 0x00000000#32))
        (broadcastInDim S50000x1 ![0] bcast_S50000_S50000x1_0 B)
        (broadcastInDim S50000 ![] bcast_S_S50000 (constant (F := Ideal) S_ .f32 0x3F800000#32)) = poolCnt B := by
  funext i
  unfold Host.scatterAdd
  rw [Ideal.hostScatterAdd_def]
  unfold Ideal.hostScatterAdd
  rw [cntScatter_sum B _ i,
    broadcastInDim_apply _ bcast_S_S512 (constant (F := Ideal) S_ .f32 0x00000000#32) i ix0 (fun a => a.elim0),
    constant_apply, Ideal.ofBits_zero_f32, zero_add]
  unfold poolCnt
  refine Finset.sum_congr rfl fun n _ => ?_
  rw [broadcastInDim_apply _ bcast_S_S50000 (constant (F := Ideal) S_ .f32 0x3F800000#32) (ix1 n) ix0 (fun a => a.elim0),
    constant_apply]
  exact one_f32

/-- The clipped count spread along the feature axis reads the clipped count of the row's graph: the larger of one
    and the count. -/
theorem clipSpread_apply (N : FVec Ideal S512 .f32) (g : Fin 512) (d : Fin 128) :
    broadcastInDim S512x128 ![0, 1] bcast_S512x1_S512x128_0_1
      (broadcastInDim S512x1 ![0] bcast_S512_S512x1_0
        (maximumf (broadcastInDim S512 ![] bcast_S_S512 (id (constant (F := Ideal) S_ .f32 0x3F800000#32))) N)) (ix2 g d)
      = max 1 (N (ix1 g)) := by
  rw [broadcastInDim_apply _ bcast_S512x1_S512x128_0_1 _ (ix2 g d) (ix2 g (0 : Fin 1)) (fun a => match a with
      | ⟨0, _⟩ => by show g.val = if (512 : Nat) = 1 then 0 else g.val; rw [if_neg (by decide)]
      | ⟨1, _⟩ => by show 0 = if (1 : Nat) = 1 then 0 else d.val; rw [if_pos rfl]),
    broadcastInDim_apply _ bcast_S512_S512x1_0 _ (ix2 g (0 : Fin 1)) (ix1 g) (fun a => match a with
      | ⟨0, _⟩ => by show g.val = if (512 : Nat) = 1 then 0 else g.val; rw [if_neg (by decide)]),
    maximumf_apply,
    broadcastInDim_apply _ bcast_S_S512 _ (ix1 g) ix0 (fun a => a.elim0)]
  show max (Ideal.ofBits .f32 0x3F800000#32) (N (ix1 g)) = _
  rw [one_f32]

/-- The transposed weight row, a column, reads the row's entry. -/
theorem weightColumn_apply (fw : FVec Ideal S1x128 .f32) (k : Fin 128) (c : Fin 1) :
    transpose S128x1 [1, 0] fw transposes_S1x128_S128x1_1_0 (ix2 k c) = fw (ix2 (0 : Fin 1) k) :=
  transpose_apply [1, 0] fw transposes_S1x128_S128x1_1_0 (ix2 k c) (ix2 (0 : Fin 1) k) (fun b => match b with
    | ⟨0, _⟩ => rfl
    | ⟨1, _⟩ => by show (0 : Nat) = c.val; have := c.isLt; omega)

/-- The bias spread over the result reads the one bias entry. -/
theorem biasSpread_apply (fb : FVec Ideal S1 .f32) (i : S512x1.Idx) :
    broadcastInDim S512x1 ![0, 1] bcast_S1x1_S512x1_0_1 (broadcastInDim S1x1 ![1] bcast_S1_S1x1_1 fb) i
      = fb (ix1 (0 : Fin 1)) := by
  rw [broadcastInDim_apply _ bcast_S1x1_S512x1_0_1 _ i (ix2 (0 : Fin 1) (0 : Fin 1)) (fun a => match a with
      | ⟨0, _⟩ => by show 0 = if (1 : Nat) = 1 then 0 else (i 0).val; rw [if_pos rfl]
      | ⟨1, _⟩ => by show 0 = if (1 : Nat) = 1 then 0 else (i 1).val; rw [if_pos rfl]),
    broadcastInDim_apply _ bcast_S1_S1x1_1 fb (ix2 (0 : Fin 1) (0 : Fin 1)) (ix1 (0 : Fin 1)) (fun a => match a with
      | ⟨0, _⟩ => by show 0 = if (1 : Nat) = 1 then 0 else 0; rw [if_pos rfl])]

/-- The head's product on the left operand's row axis: the result's row. -/
theorem headDot_lhs_row (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide),
    dif_pos (show (0 : Fin S512x128.rank) ∈ dot_S512x128_S128x1_S512x1_1_0_0_1_n_n.lhsNonContracting by decide)]
  rfl
/-- On its feature axis: the contraction's coordinate. -/
theorem headDot_lhs_col (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
/-- The right operand's row axis: the contraction's coordinate. -/
theorem headDot_rhs_row (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
/-- Its column axis: the result's column. -/
theorem headDot_rhs_col (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide),
    dif_pos (show (1 : Fin S128x1.rank) ∈ dot_S512x128_S128x1_S512x1_1_0_0_1_n_n.rhsNonContracting by decide)]
  rfl

/-- The head's product read at a graph: the sum over the features of the left operand's entry (g, d) times the right
    operand's entry (d, 0). -/
theorem headDot_apply (L : FVec Ideal S512x128 .f32) (R : FVec Ideal S128x1 .f32) (i : S512x1.Idx) :
    Host.dotGeneral dot_S512x128_S128x1_S512x1_1_0_0_1_n_n none L R i
      = ∑ d : Fin 128, L (ix2 (i 0) d) * R (ix2 d (i 1)) := by
  simp only [Host.dotGeneral]
  rw [Ideal.dotGeneral_apply, ← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx i
      ((contrEquiv1 dot_S512x128_S128x1_S512x1_1_0_0_1_n_n 128 rfl rfl).symm k) = ix2 (i 0) k :=
    funext fun a => Fin.ext (by
      match a with
      | ⟨0, _⟩ => exact headDot_lhs_row _ _
      | ⟨1, _⟩ => exact (headDot_lhs_col _ _).trans hk)
  have er : dot_S512x128_S128x1_S512x1_1_0_0_1_n_n.rhsIdx i
      ((contrEquiv1 dot_S512x128_S128x1_S512x1_1_0_0_1_n_n 128 rfl rfl).symm k) = ix2 k (i 1) :=
    funext fun a => Fin.ext (by
      match a with
      | ⟨0, _⟩ => exact (headDot_rhs_row _ _).trans hk
      | ⟨1, _⟩ => exact headDot_rhs_col _ _)
  rw [el, er]
  rfl

/-- The reference's tail, from the last hidden layer to the result. -/
theorem refTail_eq (h : FVec Ideal S50000x128 .f32) (B : IVec S50000 32) (fw : FVec Ideal S1x128 .f32)
    (fb : FVec Ideal S1 .f32) :
    addf
      (Host.dotGeneral dot_S512x128_S128x1_S512x1_1_0_0_1_n_n none
        (Host.divf
          (Host.scatterAdd scatter_S512x128_S50000x1_S50000x128_1_0_0_1
            (broadcastInDim S512x128 ![] bcast_S_S512x128 (constant (F := Ideal) S_ .f32 0x00000000#32))
            (broadcastInDim S50000x1 ![0] bcast_S50000_S50000x1_0 B) h)
          (broadcastInDim S512x128 ![0, 1] bcast_S512x1_S512x128_0_1
            (broadcastInDim S512x1 ![0] bcast_S512_S512x1_0
              (maximumf (broadcastInDim S512 ![] bcast_S_S512 (id (constant (F := Ideal) S_ .f32 0x3F800000#32)))
                (Host.scatterAdd scatter_S512_S50000x1_S50000_n_0_0_1
                  (broadcastInDim S512 ![] bcast_S_S512 (constant (F := Ideal) S_ .f32 0x00000000#32))
                  (broadcastInDim S50000x1 ![0] bcast_S50000_S50000x1_0 B)
                  (broadcastInDim S50000 ![] bcast_S_S50000 (constant (F := Ideal) S_ .f32 0x3F800000#32)))))))
        (transpose S128x1 [1, 0] fw transposes_S1x128_S128x1_1_0))
      (broadcastInDim S512x1 ![0, 1] bcast_S1x1_S512x1_0_1 (broadcastInDim S1x1 ![1] bcast_S1_S1x1_1 fb))
      = head (poolSum h B) (poolCnt B) fw fb := by
  rw [featScatter_eq h B, cntScatter_eq B]
  funext i
  rw [addf_apply, headDot_apply, biasSpread_apply fb i]
  unfold head
  refine congrArg (· + fb (ix1 (0 : Fin 1))) (Finset.sum_congr rfl fun d _ => ?_)
  rw [weightColumn_apply fw d (i 1)]
  simp only [Host.divf, Ideal.hostDivf_def]
  rw [clipSpread_apply (poolCnt B) (i 0) d]

end Cert.Sage.Ref

end
-- ==== Proof.RefValue.lean ====
/-
  The reference's run ends with its result at the network's function of its arguments: read one stage at a time,
  its operations are the aggregation, the layer (three times) and the pooled head of the specification.
-/
import proofs.«421996_j17197049053739_2_alg».proof.Proof.Gen.ReferenceIdeal.Read
import proofs.«421996_j17197049053739_2_alg».proof.Proof.RefLayers
import proofs.«421996_j17197049053739_2_alg».proof.Proof.RefTail

set_option maxRecDepth 16384

noncomputable section

open Idealize.ShloMosaic Idealize.ShloMosaic.TcCoe Idealize.SL.Sem

namespace Cert.Sage.Ref

open Cert.Sage Cert.ReferenceIdeal Cert.ReferenceIdeal.Gen Cert.ReferenceIdeal.Read

variable (x0 : (⟨S50000x128, .f32⟩ : BufTy).Contents (Elt Ideal)) (x1 : (⟨S2x1600000, .i32⟩ : BufTy).Contents (Elt Ideal))
    (x2 : (⟨S50000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128x128, .f32⟩ : BufTy).Contents (Elt Ideal)) (x7 : (⟨S128, .f32⟩ : BufTy).Contents (Elt Ideal)) (x8 : (⟨S128x128, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal))
    (x12 : (⟨S1x128, .f32⟩ : BufTy).Contents (Elt Ideal)) (x13 : (⟨S1, .f32⟩ : BufTy).Contents (Elt Ideal))

/-- The first aggregation, of the input features. -/
theorem stage_agg1 : val_main_v21 (F := Ideal) x0 x1 = agg (F := Ideal) x0 (srcOf x1) (dstOf x1) := refAgg_eq x0 x1

/-- The first layer. -/
theorem stage_layer1 : val_main_v30 (F := Ideal) x0 x1 x3 x4 x5 = layer (val_main_v21 (F := Ideal) x0 x1) x0 x3 x4 x5 :=
  refLayer_eq (val_main_v21 (F := Ideal) x0 x1) x0 x3 x4 x5

/-- The second aggregation, of the first layer's features. -/
theorem stage_agg2 : val_main_v48 (F := Ideal) x0 x1 x3 x4 x5
    = agg (F := Ideal) (val_main_v30 (F := Ideal) x0 x1 x3 x4 x5) (srcOf x1) (dstOf x1) :=
  refAgg_eq (val_main_v30 (F := Ideal) x0 x1 x3 x4 x5) x1

/-- The second layer. -/
theorem stage_layer2 : val_main_v57 (F := Ideal) x0 x1 x3 x4 x5 x6 x7 x8
    = layer (val_main_v48 (F := Ideal) x0 x1 x3 x4 x5) (val_main_v30 (F := Ideal) x0 x1 x3 x4 x5) x6 x7 x8 :=
  refLayer_eq (val_main_v48 (F := Ideal) x0 x1 x3 x4 x5) (val_main_v30 (F := Ideal) x0 x1 x3 x4 x5) x6 x7 x8

/-- The third aggregation. -/
theorem stage_agg3 : val_main_v75 (F := Ideal) x0 x1 x3 x4 x5 x6 x7 x8
    = agg (F := Ideal) (val_main_v57 (F := Ideal) x0 x1 x3 x4 x5 x6 x7 x8) (srcOf x1) (dstOf x1) :=
  refAgg_eq (val_main_v57 (F := Ideal) x0 x1 x3 x4 x5 x6 x7 x8) x1

/-- The third layer. -/
theorem stage_layer3 : val_main_v84 (F := Ideal) x0 x1 x3 x4 x5 x6 x7 x8 x9 x10 x11
    = layer (val_main_v75 (F := Ideal) x0 x1 x3 x4 x5 x6 x7 x8) (val_main_v57 (F := Ideal) x0 x1 x3 x4 x5 x6 x7 x8) x9 x10 x11 :=
  refLayer_eq (val_main_v75 (F := Ideal) x0 x1 x3 x4 x5 x6 x7 x8) (val_main_v57 (F := Ideal) x0 x1 x3 x4 x5 x6 x7 x8) x9 x10 x11

/-- The pool and the head. -/
theorem stage_tail : val_main_v100 (F := Ideal) x0 x1 x2 x3 x4 x5 x6 x7 x8 x9 x10 x11 x12 x13
    = head (poolSum (val_main_v84 (F := Ideal) x0 x1 x3 x4 x5 x6 x7 x8 x9 x10 x11) x2) (poolCnt x2) x12 x13 :=
  refTail_eq (val_main_v84 (F := Ideal) x0 x1 x3 x4 x5 x6 x7 x8 x9 x10 x11) x2 x12 x13

/-- All the stages: the reference's last stage is the network. -/
theorem stages : val_main_v100 (F := Ideal) x0 x1 x2 x3 x4 x5 x6 x7 x8 x9 x10 x11 x12 x13
    = net x0 x1 x2 x3 x4 x5 x6 x7 x8 x9 x10 x11 x12 x13 := by
  rw [stage_tail, stage_layer3, stage_agg3, stage_layer2, stage_agg2, stage_layer1, stage_agg1]
  rfl

/-- The reference's result term is the network of its arguments. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v100 (F := Ideal) m c
      = net (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13)) :=
  (val_main_v100_eq (F := Ideal) m c).trans (stages _ _ _ _ _ _ _ _ _ _ _ _ _ _)

end Cert.Sage.Ref

end
-- ==== Proof.lean ====
/-
  The certificate's five claims.

  The kernel's program is a three-layer GraphSAGE network: between the layers the host computes the mean over each
  node's incoming edges (gather, scatter-add, quotient by the clipped degree); each layer's dense part
  `relu (A · Wlᵀ + b + X · Wrᵀ)` is a pallas_call over ten row blocks; the per-graph mean pool is a pallas_call
  that accumulates, over fifty node blocks, the product of each block's one-hot graph-id matrix with the block's
  rows (and with ones, for the counts); a last pallas_call divides, contracts with the head's weight row and adds
  the bias. The reference does the same with jnp: segment sums for the aggregation and the pool, matrix products
  for the layers and the head.

  Over the extended reals both programs compute ONE function of the fourteen arguments, `Cert.Sage.net`
  (modules Spec, Agg, Net): the kernel's by `Cert.Sage.KernelValue.run` (each region's result array read off the
  frame's run, the host stretches between them read back to the arguments), the reference's by
  `Cert.Sage.Ref.ref_eq` (its run read one stage at a time). The equalities used are reindexings of finite sums,
  `0 + x = x`, and that a one-hot entry times a value is the value or zero: none needs the inputs finite, so the
  precondition is never opened. The ideal pass rewrote nothing, so `preserves` is trivial; the frames of the two
  kernel programs are the generated ones, and the reference's frame is its run with the result dropped.
-/
import proofs.«421996_j17197049053739_2_alg».proof.Defs
import proofs.«421996_j17197049053739_2_alg».proof.Proof.Gen.Kernel
import proofs.«421996_j17197049053739_2_alg».proof.Proof.Gen.Kernel.Skeleton
import proofs.«421996_j17197049053739_2_alg».proof.Proof.Gen.Kernel.Launch
import proofs.«421996_j17197049053739_2_alg».proof.Proof.Gen.Kernel.Points
import proofs.«421996_j17197049053739_2_alg».proof.Proof.Gen.Kernel.Frame
import proofs.«421996_j17197049053739_2_alg».proof.Proof.Gen.KernelIdeal
import proofs.«421996_j17197049053739_2_alg».proof.Proof.Gen.KernelIdeal.Skeleton
import proofs.«421996_j17197049053739_2_alg».proof.Proof.Gen.KernelIdeal.Launch
import proofs.«421996_j17197049053739_2_alg».proof.Proof.Gen.KernelIdeal.Points
import proofs.«421996_j17197049053739_2_alg».proof.Proof.Gen.KernelIdeal.Frame
import proofs.«421996_j17197049053739_2_alg».proof.Proof.Gen.ReferenceIdeal
import proofs.«421996_j17197049053739_2_alg».proof.Proof.Gen.ReferenceIdeal.Run
import proofs.«421996_j17197049053739_2_alg».proof.Proof.Gen.ReferenceIdeal.Read
import proofs.«421996_j17197049053739_2_alg».proof.Proof.Gen.Pre_finite_inputs
import proofs.«421996_j17197049053739_2_alg».proof.Proof.KernelValue
import proofs.«421996_j17197049053739_2_alg».proof.Proof.RefValue
import Idealize.ShloMosaic.Adequacy
import Idealize.ShloMosaic.Init

noncomputable section

namespace Cert.Proof

open Idealize.ShloMosaic Idealize.SL.Sem Cert.Kernel

/-- The word-level kernel program's frame: the generated one. -/
theorem frame_k : Cert.frame_Kernel := fun m ρ _ => Cert.Kernel.Gen.frame m ρ

/-- The idealized kernel program's frame: the generated one. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with their result at the network's function of arguments that agree. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
    Cert.Sage.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.Sage.Ref.ref_eq m' c]
  obtain ⟨e0, e1, e2, e3, e4, e5, e6, e7, e8, e9, e10, e11, e12, e13⟩ := hagree c
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
